-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x65536 : Shape := ⟨2, ![2048, 65536]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x65536 : S_.BroadcastsInDim S2048x65536 (![] : Fin 0 → Fin S2048x65536.rank)
  reducesTo_S2048x65536_S_d0_1 : S2048x65536.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S128x1 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2048x64 .f32) (main_arg1 : FVec F S2048x65536 .f32) (main_arg2 : FVec F S2048x65536 .f32) (main_arg3 : FVec F S128x64 .f32) (main_arg4 : FVec F S64 .f32) (main_arg5 : FVec F S128x1 .f32) (main_arg6 : FVec F S1 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x65536 .f32 := Host.absf main_arg1
  let main_cst_0 : FVec F S_ .f32 := constant S_ .f32 0x7F800000#32
  let main_v5 : FVec F S2048x65536 .f32 := broadcastInDim S2048x65536 ![] bcast_S_S2048x65536 main_cst_0
  let main_v6 : IVec S2048x65536 1 := cmpf .olt main_v4 main_v5
  let main_c_1 : IVec S_ 1 := constantI S_ 1 1#1
  let main_v7 : IVec S_ 1 := (fun x v => Host.reduce IntOp.andi x v reducesTo_S2048x65536_S_d0_1 h_S_) main_v6 main_c_1
  let main_v8 : IVec S_ 1 := andi main_v3 main_v7
  let main_v9 : FVec F S2048x65536 .f32 := Host.absf main_arg2
  let main_cst_2 : FVec F S_ .f32 := constant S_ .f32 0x7F800000#32
  let main_v10 : FVec F S2048x65536 .f32 := broadcastInDim S2048x65536 ![] bcast_S_S2048x65536 main_cst_2
  let main_v11 : IVec S2048x65536 1 := cmpf .olt main_v9 main_v10
  let main_c_3 : IVec S_ 1 := constantI S_ 1 1#1
  let main_v12 : IVec S_ 1 := (fun x v => Host.reduce IntOp.andi x v reducesTo_S2048x65536_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S2048x64 : Shape := ⟨2, ![2048, 64]⟩
abbrev S2048x65536 : Shape := ⟨2, ![2048, 65536]⟩
abbrev S128x64 : Shape := ⟨2, ![128, 64]⟩
abbrev S64 : Shape := ⟨1, ![64]⟩
abbrev S128x1 : Shape := ⟨2, ![128, 1]⟩
abbrev S1 : Shape := ⟨1, ![1]⟩
abbrev S64x64 : Shape := ⟨2, ![64, 64]⟩
abbrev S64x1 : Shape := ⟨2, ![64, 1]⟩
abbrev S1x64 : Shape := ⟨2, ![1, 64]⟩
abbrev S1x1 : Shape := ⟨2, ![1, 1]⟩
abbrev S65536x64 : Shape := ⟨2, ![65536, 64]⟩
abbrev S65536x1 : Shape := ⟨2, ![65536, 1]⟩
abbrev S2048x512 : Shape := ⟨2, ![2048, 512]⟩
abbrev S512x64 : Shape := ⟨2, ![512, 64]⟩
abbrev S512x1 : Shape := ⟨2, ![512, 1]⟩
abbrev S_ : Shape := ⟨0, ![]⟩
abbrev S2048x1 : Shape := ⟨2, ![2048, 1]⟩
abbrev S2048x1024 : Shape := ⟨2, ![2048, 1024]⟩
abbrev S1024x1 : Shape := ⟨2, ![1024, 1]⟩
abbrev S1024x64 : Shape := ⟨2, ![1024, 64]⟩

abbrev nBuf : Space → Nat
  | .hbm => 23
  | .vmem => 30
  | .smem => 0
  | _ => 0

abbrev bufTy : (tb : Table) → Fin (tcTables nBuf tb) → BufTy
  | .hbm, ⟨0, _⟩ => ⟨S2048x64, .f32⟩
  | .hbm, ⟨1, _⟩ => ⟨S2048x65536, .f32⟩
  | .hbm, ⟨2, _⟩ => ⟨S2048x65536, .f32⟩
  | .hbm, ⟨3, _⟩ => ⟨S128x64, .f32⟩
  | .hbm, ⟨4, _⟩ => ⟨S64, .f32⟩
  | .hbm, ⟨5, _⟩ => ⟨S128x1, .f32⟩
  | .hbm, ⟨6, _⟩ => ⟨S1, .f32⟩
  | .hbm, ⟨7, _⟩ => ⟨S64x64, .f32⟩
  | .hbm, ⟨8, _⟩ => ⟨S64x64, .f32⟩
  | .hbm, ⟨9, _⟩ => ⟨S64x1, .f32⟩
  | .hbm, ⟨10, _⟩ => ⟨S64x1, .f32⟩
  | .hbm, ⟨11, _⟩ => ⟨S1x64, .f32⟩
  | .hbm, ⟨12, _⟩ => ⟨S1x1, .f32⟩
  | .hbm, ⟨13, _⟩ => ⟨S65536x64, .f32⟩
  | .hbm, ⟨14, _⟩ => ⟨S65536x1, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S1x1, .f32⟩
  | .hbm, ⟨21, _⟩ => ⟨S2048x1, .f32⟩
  | .hbm, ⟨22, _⟩ => ⟨S2048x64, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x64, .f32⟩
  | .local _ .vmem, ⟨5, _⟩ => ⟨S64x64, .f32⟩
  | .local _ .vmem, ⟨6, _⟩ => ⟨S64x64, .f32⟩
  | .local _ .vmem, ⟨7, _⟩ => ⟨S64x1, .f32⟩
  | .local _ .vmem, ⟨8, _⟩ => ⟨S64x1, .f32⟩
  | .local _ .vmem, ⟨9, _⟩ => ⟨S1x64, .f32⟩
  | .local _ .vmem, ⟨10, _⟩ => ⟨S1x1, .f32⟩
  | .local _ .vmem, ⟨11, _⟩ => ⟨S512x64, .f32⟩
  | .local _ .vmem, ⟨12, _⟩ => ⟨S512x64, .f32⟩
  | .local _ .vmem, ⟨13, _⟩ => ⟨S512x1, .f32⟩
  | .local _ .vmem, ⟨14, _⟩ => ⟨S512x1, .f32⟩
  | .local _ .vmem, ⟨15, _⟩ => ⟨S2048x1024, .f32⟩
  | .local _ .vmem, ⟨16, _⟩ => ⟨S2048x1024, .f32⟩
  | .local _ .vmem, ⟨17, _⟩ => ⟨S1024x1, .f32⟩
  | .local _ .vmem, ⟨18, _⟩ => ⟨S1024x1, .f32⟩
  | .local _ .vmem, ⟨19, _⟩ => ⟨S1x1, .f32⟩
  | .local _ .vmem, ⟨20, _⟩ => ⟨S2048x1, .f32⟩
  | .local _ .vmem, ⟨21, _⟩ => ⟨S2048x1024, .f32⟩
  | .local _ .vmem, ⟨22, _⟩ => ⟨S2048x1024, .f32⟩
  | .local _ .vmem, ⟨23, _⟩ => ⟨S1024x1, .f32⟩
  | .local _ .vmem, ⟨24, _⟩ => ⟨S1024x1, .f32⟩
  | .local _ .vmem, ⟨25, _⟩ => ⟨S1024x64, .f32⟩
  | .local _ .vmem, ⟨26, _⟩ => ⟨S1024x64, .f32⟩
  | .local _ .vmem, ⟨27, _⟩ => ⟨S2048x1, .f32⟩
  | .local _ .vmem, ⟨28, _⟩ => ⟨S1x1, .f32⟩
  | .local _ .vmem, ⟨29, _⟩ => ⟨S2048x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2048x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S128x64_S64x64_0_0 : S128x64.Slices ![0, 0] S64x64
  slices_S128x64_S64x64_64_0 : S128x64.Slices ![64, 0] S64x64
  slices_S128x1_S64x1_0_0 : S128x1.Slices ![0, 0] S64x1
  slices_S128x1_S64x1_64_0 : S128x1.Slices ![64, 0] S64x1
  shapeCasts_S64_S1x64 : S64.ShapeCasts S1x64
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  reducesTo_S65536x1_S1_d0 : S65536x1.ReducesTo [0] S1
  h_S_ : 0 < S_.numel
  bcast_S1_S1x1_1 : S1.BroadcastsInDim S1x1 (![1] : Fin 1 → Fin S1x1.rank)
  bcast_S_S1x1 : S_.BroadcastsInDim S1x1 (![] : Fin 0 → Fin S1x1.rank)
  inb_S2048x1_S2048x1_0_0 : ∀ a, (![0, 0] : Fin 2 → Nat) a + S2048x1.size a ≤ S2048x1.size a
  h_S2048x1 : 0 < S2048x1.numel
  inb_S2048x1024_S2048x1024_0_0 : ∀ a, (![0, 0] : Fin 2 → Nat) a + S2048x1024.size a ≤ S2048x1024.size a
  h_S2048x1024 : 0 < S2048x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1x1_S1024x1 : S1x1.Broadcasts S1024x1
  shapeCasts_S2048x1_S2048x1 : S2048x1.ShapeCasts S2048x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1024x1_S1024x64 : S1024x1.Broadcasts S1024x64
  shapeCasts_S2048x64_S2048x64 : S2048x64.ShapeCasts S2048x64
  dot_S2048x512_S2048x64_S512x64_0_0_1_1_n_n_wf : DotDims.WF S2048x512 S2048x64 S512x64 [0] [0] [1] [1] [] []
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  dot_S2048x1024_S1024x1_S2048x1_1_0_0_1_n_n_wf : DotDims.WF S2048x1024 S1024x1 S2048x1 [1] [0] [0] [1] [] []
  dot_S2048x1024_S2048x1_S1024x1_0_0_1_1_n_n_wf : DotDims.WF S2048x1024 S2048x1 S1024x1 [0] [0] [1] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x65536.size a
  hwx0_0 : ∀ i : grid0.Coords, EltTy.bits .f32 = 32 ∨ (Rect.block (s := S2048x65536) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x65536.size a
  hwx0_1 : ∀ i : grid0.Coords, EltTy.bits .f32 = 32 ∨ (Rect.block (s := S2048x65536) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S65536x64.size a
  hwx0_9 : ∀ i : grid0.Coords, EltTy.bits .f32 = 32 ∨ (Rect.block (s := S65536x64) S512x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S65536x1.size a
  hwx0_10 : ∀ i : grid0.Coords, EltTy.bits .f32 = 32 ∨ (Rect.block (s := S65536x1) S512x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S2048x65536.size a
  hwx1_0 : ∀ i : grid1.Coords, EltTy.bits .f32 = 32 ∨ (Rect.block (s := S2048x65536) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S65536x1.size a
  hwx1_1 : ∀ i : grid1.Coords, EltTy.bits .f32 = 32 ∨ (Rect.block (s := S65536x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S2048x1.size a
  hwx1_3 : ∀ i : grid1.Coords, EltTy.bits .f32 = 32 ∨ (Rect.block (s := S2048x1) S2048x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S2048x65536.size a
  hwx2_0 : ∀ i : grid2.Coords, EltTy.bits .f32 = 32 ∨ (Rect.block (s := S2048x65536) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S65536x1.size a
  hwx2_1 : ∀ i : grid2.Coords, EltTy.bits .f32 = 32 ∨ (Rect.block (s := S65536x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S65536x64.size a
  hwx2_2 : ∀ i : grid2.Coords, EltTy.bits .f32 = 32 ∨ (Rect.block (s := S65536x64) S1024x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S2048x1.size a
  hwx2_3 : ∀ i : grid2.Coords, EltTy.bits .f32 = 32 ∨ (Rect.block (s := S2048x1) S2048x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S2048x64.size a
  hwx2_5 : ∀ i : grid2.Coords, EltTy.bits .f32 = 32 ∨ (Rect.block (s := S2048x64) S2048x64.size (cc2_transform_5 i) (hinb2_5 i)).WholeWords (EltTy.packing .f32)

variable [Facts₀]

def dot_S2048x512_S2048x64_S512x64_0_0_1_1_n_n : DotDims S2048x512 S2048x64 S512x64 where
  lhsContracting := [0]
  rhsContracting := [0]
  lhsNonContracting := [1]
  rhsNonContracting := [1]
  lhsBatch := []
  rhsBatch := []
  wf := dot_S2048x512_S2048x64_S512x64_0_0_1_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf
def dot_S2048x1024_S2048x1_S1024x1_0_0_1_1_n_n : DotDims S2048x1024 S2048x1 S1024x1 where
  lhsContracting := [0]
  rhsContracting := [0]
  lhsNonContracting := [1]
  rhsNonContracting := [1]
  lhsBatch := []
  rhsBatch := []
  wf := dot_S2048x1024_S2048x1_S1024x1_0_0_1_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S512x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2048x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_0) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S2048x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S2048x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2048x64 : Shape := ⟨2, ![2048, 64]⟩
abbrev S2048x65536 : Shape := ⟨2, ![2048, 65536]⟩
abbrev S128x64 : Shape := ⟨2, ![128, 64]⟩
abbrev S64 : Shape := ⟨1, ![64]⟩
abbrev S128x1 : Shape := ⟨2, ![128, 1]⟩
abbrev S1 : Shape := ⟨1, ![1]⟩
abbrev S65536x2048 : Shape := ⟨2, ![65536, 2048]⟩
abbrev S65536x64 : Shape := ⟨2, ![65536, 64]⟩
abbrev S65536x128 : Shape := ⟨2, ![65536, 128]⟩
abbrev S1x64 : Shape := ⟨2, ![1, 64]⟩
abbrev S_ : Shape := ⟨0, ![]⟩
abbrev S65536x1 : Shape := ⟨2, ![65536, 1]⟩
abbrev S1x1 : Shape := ⟨2, ![1, 1]⟩
abbrev S2048x1 : Shape := ⟨2, ![2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x65536, .f32⟩
  | .hbm, ⟨2, _⟩ => ⟨S2048x65536, .f32⟩
  | .hbm, ⟨3, _⟩ => ⟨S128x64, .f32⟩
  | .hbm, ⟨4, _⟩ => ⟨S64, .f32⟩
  | .hbm, ⟨5, _⟩ => ⟨S128x1, .f32⟩
  | .hbm, ⟨6, _⟩ => ⟨S1, .f32⟩
  | .hbm, ⟨7, _⟩ => ⟨S65536x2048, .f32⟩
  | .hbm, ⟨8, _⟩ => ⟨S65536x64, .f32⟩
  | .hbm, ⟨9, _⟩ => ⟨S65536x2048, .f32⟩
  | .hbm, ⟨10, _⟩ => ⟨S65536x64, .f32⟩
  | .hbm, ⟨11, _⟩ => ⟨S65536x128, .f32⟩
  | .hbm, ⟨12, _⟩ => ⟨S65536x64, .f32⟩
  | .hbm, ⟨13, _⟩ => ⟨S1x64, .f32⟩
  | .hbm, ⟨14, _⟩ => ⟨S65536x64, .f32⟩
  | .hbm, ⟨15, _⟩ => ⟨S65536x64, .f32⟩
  | .hbm, ⟨16, _⟩ => ⟨S_, .f32⟩
  | .hbm, ⟨17, _⟩ => ⟨S65536x64, .f32⟩
  | .hbm, ⟨18, _⟩ => ⟨S65536x64, .f32⟩
  | .hbm, ⟨19, _⟩ => ⟨S65536x1, .f32⟩
  | .hbm, ⟨20, _⟩ => ⟨S1x1, .f32⟩
  | .hbm, ⟨21, _⟩ => ⟨S65536x1, .f32⟩
  | .hbm, ⟨22, _⟩ => ⟨S65536x1, .f32⟩
  | .hbm, ⟨23, _⟩ => ⟨S_, .f32⟩
  | .hbm, ⟨24, _⟩ => ⟨S1, .f32⟩
  | .hbm, ⟨25, _⟩ => ⟨S1x1, .f32⟩
  | .hbm, ⟨26, _⟩ => ⟨S_, .f32⟩
  | .hbm, ⟨27, _⟩ => ⟨S1x1, .f32⟩
  | .hbm, ⟨28, _⟩ => ⟨S1x1, .f32⟩
  | .hbm, ⟨29, _⟩ => ⟨S65536x1, .f32⟩
  | .hbm, ⟨30, _⟩ => ⟨S65536x1, .f32⟩
  | .hbm, ⟨31, _⟩ => ⟨S65536x1, .f32⟩
  | .hbm, ⟨32, _⟩ => ⟨S2048x1, .f32⟩
  | .hbm, ⟨33, _⟩ => ⟨S65536x2048, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x64, .f32⟩
  | .hbm, ⟨40, _⟩ => ⟨S65536x64, .f32⟩
  | .hbm, ⟨41, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  transposes_S2048x65536_S65536x2048_1_0 : S2048x65536.Transposes [1, 0] S65536x2048
  concatenates_S65536x64_S65536x64_S65536x128_d1 : Shape.Concatenates [S65536x64, S65536x64] S65536x128 1
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S1_d0 : S65536x1.ReducesTo [0] S1
  h_S_ : 0 < S_.numel
  bcast_S_S1x1 : S_.BroadcastsInDim S1x1 (![] : Fin 0 → Fin S1x1.rank)
  bcast_S_S65536x1 : S_.BroadcastsInDim S65536x1 (![] : Fin 0 → Fin S65536x1.rank)
  bcast_S65536x1_S65536x64_0_1 : S65536x1.BroadcastsInDim S65536x64 (![0, 1] : Fin 2 → Fin S65536x64.rank)
  dot_S65536x2048_S2048x64_S65536x64_1_0_0_1_n_n_wf : DotDims.WF S65536x2048 S2048x64 S65536x64 [1] [0] [0] [1] [] []
  dot_S65536x128_S128x64_S65536x64_1_0_0_1_n_n_wf : DotDims.WF S65536x128 S128x64 S65536x64 [1] [0] [0] [1] [] []
  dot_S65536x128_S128x1_S65536x1_1_0_0_1_n_n_wf : DotDims.WF S65536x128 S128x1 S65536x1 [1] [0] [0] [1] [] []
  dot_S2048x65536_S65536x1_S2048x1_1_0_0_1_n_n_wf : DotDims.WF S2048x65536 S65536x1 S2048x1 [1] [0] [0] [1] [] []
  dot_S65536x2048_S2048x1_S65536x1_1_0_0_1_n_n_wf : DotDims.WF S65536x2048 S2048x1 S65536x1 [1] [0] [0] [1] [] []
  dot_S2048x65536_S65536x64_S2048x64_1_0_0_1_n_n_wf : DotDims.WF S2048x65536 S65536x64 S2048x64 [1] [0] [0] [1] [] []

variable [Facts₀]

def dot_S65536x2048_S2048x64_S65536x64_1_0_0_1_n_n : DotDims S65536x2048 S2048x64 S65536x64 where
  lhsContracting := [1]
  rhsContracting := [0]
  lhsNonContracting := [0]
  rhsNonContracting := [1]
  lhsBatch := []
  rhsBatch := []
  wf := dot_S65536x2048_S2048x64_S65536x64_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x128_S128x1_S65536x1_1_0_0_1_n_n : DotDims S65536x128 S128x1 S65536x1 where
  lhsContracting := [1]
  rhsContracting := [0]
  lhsNonContracting := [0]
  rhsNonContracting := [1]
  lhsBatch := []
  rhsBatch := []
  wf := dot_S65536x128_S128x1_S65536x1_1_0_0_1_n_n_wf
def dot_S2048x65536_S65536x1_S2048x1_1_0_0_1_n_n : DotDims S2048x65536 S65536x1 S2048x1 where
  lhsContracting := [1]
  rhsContracting := [0]
  lhsNonContracting := [0]
  rhsNonContracting := [1]
  lhsBatch := []
  rhsBatch := []
  wf := dot_S2048x65536_S65536x1_S2048x1_1_0_0_1_n_n_wf
def dot_S65536x2048_S2048x1_S65536x1_1_0_0_1_n_n : DotDims S65536x2048 S2048x1 S65536x1 where
  lhsContracting := [1]
  rhsContracting := [0]
  lhsNonContracting := [0]
  rhsNonContracting := [1]
  lhsBatch := []
  rhsBatch := []
  wf := dot_S65536x2048_S2048x1_S65536x1_1_0_0_1_n_n_wf
def dot_S2048x65536_S65536x64_S2048x64_1_0_0_1_n_n : DotDims S2048x65536 S65536x64 S2048x64 where
  lhsContracting := [1]
  rhsContracting := [0]
  lhsNonContracting := [0]
  rhsNonContracting := [1]
  lhsBatch := []
  rhsBatch := []
  wf := dot_S2048x65536_S65536x64_S2048x64_1_0_0_1_n_n_wf

class Facts : Prop extends Facts₀ where

variable [Facts]
-- ==== Proof.Spec.lean ====
/-
  The mathematics of one attention-weighted message-passing layer over a graph given by two dense incidence
  matrices, stated index by index on the extended reals.

  Nodes n < 2048 carry feature rows x[n, ·] (64 wide); edges e < 65536 are the COLUMNS of the incidence matrices
  src, tgt : [2048, 65536].  An edge gathers its endpoints' features through the incidence columns,
      hS[e, k] = ∑ n, src[n, e] · x[n, k],      hT[e, k] = ∑ n, tgt[n, e] · x[n, k],
  and a linear layer on the pair (hS | hT), its weight matrix split into the rows that meet hS and those that
  meet hT, gives the edge's message (through a rectifier) and its attention logit:
      y[e, j] = max (∑ k, hS[e,k]·W₁[k,j] + ∑ k, hT[e,k]·W₂[k,j] + b[j]) 0,
      a[e]    = ∑ k, hS[e,k]·w₁[k] + ∑ k, hT[e,k]·w₂[k] + β.
  With μ the mean logit, the unnormalised weight of an edge is exp (a[e] − μ); a node's denominator is the sum of
  the weights of the edges pointing at it, d[n] = ∑ e, tgt[n, e] · exp (a[e] − μ); an edge reads its own
  denominator back through its incidence column, ∑ n, tgt[n, e] · d[n]; and the layer's output sums the weighted
  messages over the edges pointing at each node:
      o[n, j] = ∑ e, tgt[n, e] · (y[e, j] · (exp (a[e] − μ) / (∑ n', tgt[n', e] · d[n'] + ε))).

  Each definition below is one of these stages as a function of the arrays it reads, so that a computation that
  produces the stages one after another (whatever its tiling, and whatever order it sums in) can be compared
  with them stage by stage.
-/
import Idealize.ShloMosaic.Lib.ValueIdx
import Idealize.ShloMosaic.PureOps.Ideal.Laws

noncomputable section

namespace Cert.EdgeAttention

open Idealize.ShloMosaic Idealize.ShloMosaic.ValueIdx

/-- A matrix of extended reals with `a` rows and `b` columns. -/
abbrev Mat (a b : ℕ) : Type := (⟨2, ![a, b]⟩ : Shape).Idx → EReal

/-- The features of the endpoint an incidence matrix `inc` selects for edge `e`: `∑ n, inc[n, e] · x[n, k]`. -/
def gathered (inc : Mat 2048 65536) (x : Mat 2048 64) (e : Fin 65536) (k : Fin 64) : EReal :=
  ∑ n : Fin 2048, inc (ix2 n e) * x (ix2 n k)

/-- The message of edge `e`, column `j`: the rectified linear layer on the two gathered feature rows. -/
def message (src tgt : Mat 2048 65536) (x : Mat 2048 64) (W₁ W₂ : Mat 64 64) (b : Mat 1 64) (e : Fin 65536) (j : Fin 64) : EReal :=
  max ((∑ k : Fin 64, gathered src x e k * W₁ (ix2 k j)) + (∑ k : Fin 64, gathered tgt x e k * W₂ (ix2 k j)) + b (ix2 0 j))
    (Ideal.ofBits .f32 0x00000000#32)

/-- The attention logit of edge `e`. -/
def logit (src tgt : Mat 2048 65536) (x : Mat 2048 64) (w₁ w₂ : Mat 64 1) (β : Mat 1 1) (e : Fin 65536) : EReal :=
  (∑ k : Fin 64, gathered src x e k * w₁ (ix2 k 0)) + (∑ k : Fin 64, gathered tgt x e k * w₂ (ix2 k 0)) + β (ix2 0 0)

/-- The mean of the 65536 logits: their sum from zero, divided by the count. -/
def meanLogit (a : Mat 65536 1) : EReal :=
  Ideal.div (Ideal.ofBits .f32 0x00000000#32 + ∑ e : Fin 65536, a (ix2 e 0)) (Ideal.ofBits .f32 0x47800000#32)

/-- The unnormalised attention weight of edge `e`: `exp (a[e] − μ)`. -/
def weight (a : Mat 65536 1) (μ : Mat 1 1) (e : Fin 65536) : EReal := Ideal.exp (a (ix2 e 0) - μ (ix2 0 0))

/-- The denominator of node `n`: the weights of the edges pointing at it, summed. -/
def denominator (tgt : Mat 2048 65536) (a : Mat 65536 1) (μ : Mat 1 1) (n : Fin 2048) : EReal :=
  ∑ e : Fin 65536, tgt (ix2 n e) * weight a μ e

/-- The normalised attention of edge `e`: its weight over its target's denominator (read back through the
    incidence column) plus the guard `ε`. -/
def attention (tgt : Mat 2048 65536) (a : Mat 65536 1) (d : Mat 2048 1) (μ : Mat 1 1) (e : Fin 65536) : EReal :=
  Ideal.div (weight a μ e) ((∑ n : Fin 2048, tgt (ix2 n e) * d (ix2 n 0)) + Ideal.ofBits .f32 0x358637BD#32)

/-- The output at node `n`, column `j`: the attention-weighted messages of the edges pointing at `n`, summed. -/
def aggregated (tgt : Mat 2048 65536) (a : Mat 65536 1) (y : Mat 65536 64) (d : Mat 2048 1) (μ : Mat 1 1) (n : Fin 2048) (j : Fin 64) : EReal :=
  ∑ e : Fin 65536, tgt (ix2 n e) * (y (ix2 e j) * attention tgt a d μ e)

/-! ## The layer as one function of its seven arguments

The linear layers' weight matrices have 128 rows: rows 0–63 meet the source endpoint's features, rows 64–127 the
target endpoint's. The biases are vectors, read as one-row matrices. -/

/-- A vector of extended reals with `b` entries. -/
abbrev Vect (b : ℕ) : Type := (⟨1, ![b]⟩ : Shape).Idx → EReal

/-- Rows `off … off + 63` of a 128-row matrix. -/
def rows64 {b : ℕ} (W : Mat 128 b) (off : ℕ) (h : off + 64 ≤ 128) : Mat 64 b :=
  fun i => W (ix2 ⟨off + (i 0).val, by have := idx2_lt0 i; omega⟩ (i 1))

/-- A vector as a one-row matrix. -/
def asRow {b : ℕ} (v : Vect b) : Mat 1 b := fun i => v (ix1 (i 1))

section Layer

variable (x : Mat 2048 64) (src tgt : Mat 2048 65536) (W : Mat 128 64) (bias : Vect 64) (w : Mat 128 1) (β : Vect 1)

/-- Every edge's message. -/
def messages : Mat 65536 64 :=
  fun i => message src tgt x (rows64 W 0 (by omega)) (rows64 W 64 (by omega)) (asRow bias) (i 0) (i 1)

/-- Every edge's logit. -/
def logits : Mat 65536 1 :=
  fun i => logit src tgt x (rows64 w 0 (by omega)) (rows64 w 64 (by omega)) (asRow β) (i 0)

/-- The mean logit, as a one-by-one matrix. -/
def mean : Mat 1 1 := fun _ => meanLogit (logits x src tgt w β)

/-- Every node's denominator. -/
def denominators : Mat 2048 1 :=
  fun i => denominator tgt (logits x src tgt w β) (mean x src tgt w β) (i 0)

/-- The layer's output. -/
def layer : Mat 2048 64 :=
  fun i => aggregated tgt (logits x src tgt w β) (messages x src tgt W bias) (denominators x src tgt w β) (mean x src tgt w β) (i 0) (i 1)

end Layer

end Cert.EdgeAttention

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.LibTransDot.lean ====
/-
  A matrix product that contracts the ROW axis of both operands, [k, a] and [k, b] → [a, b]: no batch axis, one
  contracted axis of extent k (axis 0 on both sides), the result's rows the left operand's columns, the result's
  columns the right operand's columns. It is the product of the left operand's transpose with the right operand,
  stated without the transpose.

  The dimension numbers place the coordinates: the left operand is read at (contraction position, row of the
  result), the right at (contraction position, column of the result). So at the ideal values, where a product
  into a zero accumulator is the exact sum over the contraction index, the entry (p, q) is
  ∑ κ < k, l (κ, p) · r (κ, q).
-/
import Idealize.ShloMosaic.Lib.ValueIdx
import Idealize.ShloMosaic.PureOps.Ideal.Laws

namespace Cert.TransDot

open Idealize.ShloMosaic Idealize.ShloMosaic.ValueIdx

variable {a k b : ℕ} (d : DotDims ⟨2, ![k, a]⟩ ⟨2, ![k, b]⟩ ⟨2, ![a, b]⟩)

/-- The dimension numbers of a product contracting both operands' row axis. -/
structure Trans : Prop where
  lhsBatch : d.lhsBatch = []
  lhsNon : d.lhsNonContracting = [1]
  lhsContr : d.lhsContracting = [0]
  rhsBatch : d.rhsBatch = []
  rhsNon : d.rhsNonContracting = [1]
  rhsContr : d.rhsContracting = [0]

variable {d}

/-- The left operand's column is the result's row. -/
theorem lhs_col (h : Trans d) (j : (⟨2, ![a, b]⟩ : Shape).Idx) (q : d.contr.Idx) : (d.lhsIdx j q 1).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Trans d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Trans d) (hr : d.contr.rank = 1) (hs : d.contr.size ⟨0, by omega⟩ = k)
    (l : (⟨2, ![k, a]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 κ p) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 κ p := funext fun x => Fin.ext (by
    match x with
    | ⟨0, _⟩ => exact (d.lhsIdx_val_of_single h.lhsContr _ _).trans hk
    | ⟨1, _⟩ => exact lhs_col h _ _)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The product into a zero accumulator, at an entry. -/
theorem matmul_zero_apply {φ₁ φ₂ : FTy} (h : Trans d) (hr : d.contr.rank = 1) (hs : d.contr.size ⟨0, by omega⟩ = k)
    (prec : Option ContractPrecision) (l : FVec Ideal ⟨2, ![k, a]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 κ p) * r (ix2 κ q) :=
  (Ideal.matmul_constant_zero_apply d prec l r (ix2 p q)).trans (sum_contr h hr hs l r p q)

end Cert.TransDot
-- ==== Proof.RegionA.lean ====
/-
  The first region of the layer: for each tile of 512 edges, the two endpoints' features gathered through the
  incidence columns, the message (the rectified linear layer on the gathered pair) and the attention logit.

  Point t of the grid reads columns 512 t … 512 t + 511 of the two incidence matrices and everything else whole, and
  writes rows 512 t … 512 t + 511 of the message array and of the logit array. On the extended reals the roundings
  to the narrow format are the identity and each product into a zero accumulator is the exact sum over the contracted
  axis, so the tile's entry (p, q) is the message of edge 512 t + p at column q, sum for sum; the 128 tiles cover
  the 65536 rows, so after the region both arrays hold the layer's messages and logits.
-/
import proofs.«111324_j36816459661559_1_alg».proof.Proof.Gen.KernelIdeal.Frame
import proofs.«111324_j36816459661559_1_alg».proof.Proof.Spec
import proofs.«111324_j36816459661559_1_alg».proof.Proof.LibPlainDot
import proofs.«111324_j36816459661559_1_alg».proof.Proof.LibTransDot
import Idealize.ShloMosaic.Lib.Pipeline.Value
import Idealize.ShloMosaic.Lib.ValueLayout
import Idealize.ShloMosaic.Lib.Tactic

noncomputable section

namespace Cert.KernelIdeal.RegionA

open Idealize.ShloMosaic Idealize.ShloMosaic.TcCoe Idealize.SL.Sem Idealize.ShloMosaic.ValueIdx
open Idealize.ShloMosaic.Pipeline (Dat)
open Cert.KernelIdeal Cert.KernelIdeal.Gen Cert.EdgeAttention

variable (V : (c : Dev nD) → (b : Ref sig .tc) → Buf (Elt Ideal) ((c : Thread nD τ).loc b))

/-! ## The tile's arithmetic, index by index -/

/-- The gathered features of the tile's edge p (rounded to the narrow format, the identity on the extended reals):
    the product contracting the node axis of both operands is the sum over the nodes. -/
theorem gathered_src_tile (x : Vec Ideal S2048x512 .f32) (x2 : Vec Ideal S2048x64 .f32) (p : Fin 512) (k : Fin 64) :
    k0_pay3 x x2 (ix2 p k) = ∑ n : Fin 2048, x (ix2 n p) * x2 (ix2 n k) := by
  unfold k0_pay3 k0_pay2
  exact Cert.TransDot.matmul_zero_apply (d := dot_S2048x512_S2048x64_S512x64_0_0_1_1_n_n) ⟨rfl, rfl, rfl, rfl, rfl, rfl⟩ rfl rfl none _ _ p k

/-- The same for the second incidence tile. -/
theorem gathered_tgt_tile (x : Vec Ideal S2048x512 .f32) (x2 : Vec Ideal S2048x64 .f32) (p : Fin 512) (k : Fin 64) :
    k0_pay4 x x2 (ix2 p k) = ∑ n : Fin 2048, x (ix2 n p) * x2 (ix2 n k) := by
  unfold k0_pay4 k0_pay2
  exact Cert.TransDot.matmul_zero_apply (d := dot_S2048x512_S2048x64_S512x64_0_0_1_1_n_n) ⟨rfl, rfl, rfl, rfl, rfl, rfl⟩ rfl rfl none _ _ p k

/-- The bias row broadcast down the tile's rows, read at (p, q), is the row's entry q. -/
theorem bias_row_apply (x7 : Vec Ideal S1x64 .f32) (p : Fin 512) (q : Fin 64) :
    broadcastTo S512x64 (shapeCast S1x64 x7 shapeCasts_S1x64_S1x64) broadcasts_S1x64_S512x64 (ix2 p q) = x7 (ix2 0 q) := by
  rw [shapeCast_self]
  refine broadcastTo_apply x7 broadcasts_S1x64_S512x64 (ix2 p q) (ix2 0 q) fun a => ?_
  match a with
  | ⟨0, _⟩ => rfl
  | ⟨1, _⟩ => rfl

/-- The message tile at (p, q): the rectified sum of the two linear layers on the gathered rows and the bias. -/
theorem message_tile (x0 x1 : Vec Ideal S2048x512 .f32) (x2 : Vec Ideal S2048x64 .f32) (x3 x4 : Vec Ideal S64x64 .f32)
    (x7 : Vec Ideal S1x64 .f32) (p : Fin 512) (q : Fin 64) :
    k0_pay6 x0 x1 x2 x3 x4 x7 (ix2 p q)
      = max ((∑ k : Fin 64, (∑ n : Fin 2048, x0 (ix2 n p) * x2 (ix2 n k)) * x3 (ix2 k q))
          + (∑ k : Fin 64, (∑ n : Fin 2048, x1 (ix2 n p) * x2 (ix2 n k)) * x4 (ix2 k q)) + x7 (ix2 0 q))
        (Ideal.ofBits .f32 0x00000000#32) := by
  unfold k0_pay6
  rw [maximumf_apply, addf_apply, addf_apply, bias_row_apply, broadcast_apply]
  rw [Cert.PlainDot.matmul_zero_apply (d := dot_S512x64_S64x64_S512x64_1_0_0_1_n_n) ⟨rfl, rfl, rfl, rfl, rfl, rfl⟩ rfl rfl none _ _ p q,
    Cert.PlainDot.matmul_zero_apply (d := dot_S512x64_S64x64_S512x64_1_0_0_1_n_n) ⟨rfl, rfl, rfl, rfl, rfl, rfl⟩ rfl rfl none _ _ p q]
  simp only [gathered_src_tile, gathered_tgt_tile, shapeCast_self, truncf_apply]
  rfl

/-- The scalar bias broadcast down the tile's rows, read at (p, 0), is the scalar. -/
theorem bias_scalar_apply (x8 : Vec Ideal S1x1 .f32) (p : Fin 512) :
    broadcastTo S512x1 (shapeCast S1x1 x8 shapeCasts_S1x1_S1x1) broadcasts_S1x1_S512x1 (ix2 p 0) = x8 (ix2 0 0) := by
  rw [shapeCast_self]
  refine broadcastTo_apply x8 broadcasts_S1x1_S512x1 (ix2 p 0) (ix2 0 0) fun a => ?_
  match a with
  | ⟨0, _⟩ => rfl
  | ⟨1, _⟩ => rfl

/-- The logit tile at row p: the two linear layers' single column on the gathered rows, plus the scalar bias. -/
theorem logit_tile (x0 x1 : Vec Ideal S2048x512 .f32) (x2 : Vec Ideal S2048x64 .f32) (x5 x6 : Vec Ideal S64x1 .f32)
    (x8 : Vec Ideal S1x1 .f32) (p : Fin 512) :
    k0_pay1 (k0_pay4 x1 x2) (k0_pay5 x6) (k0_pay7 x0 x2 x5) (constant S512x1 .f32 0x00000000#32) x8 (ix2 p 0)
      = (∑ k : Fin 64, (∑ n : Fin 2048, x0 (ix2 n p) * x2 (ix2 n k)) * x5 (ix2 k 0))
          + (∑ k : Fin 64, (∑ n : Fin 2048, x1 (ix2 n p) * x2 (ix2 n k)) * x6 (ix2 k 0)) + x8 (ix2 0 0) := by
  unfold k0_pay1 k0_pay7 k0_pay5
  rw [addf_apply, addf_apply, bias_scalar_apply]
  rw [Cert.PlainDot.matmul_zero_apply (d := dot_S512x64_S64x1_S512x1_1_0_0_1_n_n) ⟨rfl, rfl, rfl, rfl, rfl, rfl⟩ rfl rfl none _ _ p 0,
    Cert.PlainDot.matmul_zero_apply (d := dot_S512x64_S64x1_S512x1_1_0_0_1_n_n) ⟨rfl, rfl, rfl, rfl, rfl, rfl⟩ rfl rfl none _ _ p 0]
  simp only [gathered_src_tile, gathered_tgt_tile, shapeCast_self, truncf_apply]

/-! ## A tile of the kernel's results against the layer's mathematics -/

/-- When the two incidence tiles are columns 512 τ … of the incidence matrices, the message tile at j is the
    message of edge 512 τ + j₀, column j₁: the same sums, term by term. -/
theorem message_tile_eq (src tgt : Mat 2048 65536) (x : Mat 2048 64) (W₁ W₂ : Mat 64 64) (b : Mat 1 64)
    (x0 x1 : Vec Ideal S2048x512 .f32) (tv : ℕ) (j : S512x64.Idx) (i : S65536x64.Idx)
    (h0 : ∀ (y : S2048x512.Idx) (k : S2048x65536.Idx), (k 0).val = (y 0).val → (k 1).val = 512 * tv + (y 1).val → x0 y = src k)
    (h1 : ∀ (y : S2048x512.Idx) (k : S2048x65536.Idx), (k 0).val = (y 0).val → (k 1).val = 512 * tv + (y 1).val → x1 y = tgt k)
    (hi0 : (i 0).val = 512 * tv + (j 0).val) (hi1 : (i 1).val = (j 1).val) :
    k0_pay6 x0 x1 x W₁ W₂ b j = message src tgt x W₁ W₂ b (i 0) (i 1) := by
  obtain ⟨p, q, rfl⟩ : ∃ (p : Fin 512) (q : Fin 64), j = ix2 p q := ⟨j 0, j 1, eq_ix2 j⟩
  have hq : i 1 = q := Fin.ext hi1
  rw [message_tile, hq]
  unfold message gathered
  have g0 : ∀ n : Fin 2048, x0 (ix2 n p) = src (ix2 n (i 0)) := fun n => h0 _ _ rfl hi0
  have g1 : ∀ n : Fin 2048, x1 (ix2 n p) = tgt (ix2 n (i 0)) := fun n => h1 _ _ rfl hi0
  simp only [g0, g1]

/-- When the two incidence tiles are columns 512 τ … of the incidence matrices, the logit tile at row j₀ is the
    logit of edge 512 τ + j₀: the same sums, term by term. -/
theorem logit_tile_eq (src tgt : Mat 2048 65536) (x : Mat 2048 64) (w₁ w₂ : Mat 64 1) (β : Mat 1 1)
    (x0 x1 : Vec Ideal S2048x512 .f32) (tv : ℕ) (j : S512x1.Idx) (i : S65536x1.Idx)
    (h0 : ∀ (y : S2048x512.Idx) (k : S2048x65536.Idx), (k 0).val = (y 0).val → (k 1).val = 512 * tv + (y 1).val → x0 y = src k)
    (h1 : ∀ (y : S2048x512.Idx) (k : S2048x65536.Idx), (k 0).val = (y 0).val → (k 1).val = 512 * tv + (y 1).val → x1 y = tgt k)
    (hi0 : (i 0).val = 512 * tv + (j 0).val) :
    k0_pay1 (k0_pay4 x1 x) (k0_pay5 w₂) (k0_pay7 x0 x w₁) (constant S512x1 .f32 0x00000000#32) β j
      = logit src tgt x w₁ w₂ β (i 0) := by
  obtain ⟨p, q, rfl⟩ : ∃ (p : Fin 512) (q : Fin 1), j = ix2 p q := ⟨j 0, j 1, eq_ix2 j⟩
  obtain rfl : q = 0 := Subsingleton.elim _ _
  rw [logit_tile]
  unfold logit gathered
  have g0 : ∀ n : Fin 2048, x0 (ix2 n p) = src (ix2 n (i 0)) := fun n => h0 _ _ rfl hi0
  have g1 : ∀ n : Fin 2048, x1 (ix2 n p) = tgt (ix2 n (i 0)) := fun n => h1 _ _ rfl hi0
  simp only [g0, g1]

/-! ## The windows' blocks as parts of the arrays

A block's coordinate in its array is, on each axis, the block index times the block's extent plus the coordinate
inside the block. -/

theorem zero_offsets : (![0, 0] : Fin 2 → Nat) = fun _ => 0 := funext fun a => by fin_cases a <;> rfl

/-- The windows' block indices at point t, decided over the grid: the two incidence matrices move along their
    column axis with the point, the two result arrays along their row axis, and every other window stays at its
    one whole block. -/
theorem block_indices : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The first incidence matrix's tile at point t is its columns 512 t … 512 t + 511. -/
theorem src_tile_apply (c : Dev nD) (t : Fin cfg0.N) (y : S2048x512.Idx) (k : S2048x65536.Idx)
    (hk0 : (k 0).val = (y 0).val) (hk1 : (k 1).val = 512 * t.val + (y 1).val) :
    (iblk0 V c 0 t : Vec Ideal S2048x512 .f32) y = (V c main_arg1 : S2048x65536.Idx → EReal) k := by
  obtain ⟨e0, e1, -⟩ := block_indices t
  unfold iblk0
  rw [View.read_apply]
  show V c main_arg1 _ = V c main_arg1 _
  congr 1
  funext a
  apply Fin.ext
  match a with
  | ⟨0, _⟩ => show win0_0.index t 0 * 2048 + 1 * (y 0).val = (k 0).val; rw [e0, hk0]; omega
  | ⟨1, _⟩ => show win0_0.index t 1 * 512 + 1 * (y 1).val = (k 1).val; rw [e1, hk1]; omega

/-- The second incidence matrix's tile at point t is its columns 512 t … 512 t + 511. -/
theorem tgt_tile_apply (c : Dev nD) (t : Fin cfg0.N) (y : S2048x512.Idx) (k : S2048x65536.Idx)
    (hk0 : (k 0).val = (y 0).val) (hk1 : (k 1).val = 512 * t.val + (y 1).val) :
    (iblk0 V c 1 t : Vec Ideal S2048x512 .f32) y = (V c main_arg2 : S2048x65536.Idx → EReal) k := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t 0 * 2048 + 1 * (y 0).val = (k 0).val; rw [e0, hk0]; omega
  | ⟨1, _⟩ => show win0_1.index t 1 * 512 + 1 * (y 1).val = (k 1).val; rw [e1, hk1]; omega

/-- The node features are read whole at every point. -/
theorem features_block (c : Dev nD) (t : Fin cfg0.N) :
    (iblk0 V c 2 t : Vec Ideal S2048x64 .f32) = (V c main_arg0 : S2048x64.Idx → EReal) := by
  have e0 : win0_2.index t (0 : Fin 2) = 0 := (block_indices t).2.2.2.2.1
  have e1 : win0_2.index t (1 : Fin 2) = 0 := (block_indices t).2.2.2.2.2.1
  funext y
  unfold iblk0
  rw [View.read_apply]
  show V c main_arg0 _ = V c main_arg0 _
  congr 1
  funext a
  apply Fin.ext
  match a with
  | ⟨0, _⟩ => show win0_2.index t 0 * 2048 + 1 * (y 0).val = (y 0).val; rw [e0]; omega
  | ⟨1, _⟩ => show win0_2.index t 1 * 64 + 1 * (y 1).val = (y 1).val; rw [e1]; omega

/-- The message layer's weight rows meeting the first endpoint are read whole at every point. -/
theorem weights_src_block (c : Dev nD) (t : Fin cfg0.N) :
    (iblk0 V c 3 t : Vec Ideal S64x64 .f32) = (V c main_v0 : S64x64.Idx → EReal) := by
  have e0 : win0_3.index t (0 : Fin 2) = 0 := (block_indices t).2.2.2.2.2.2.1
  have e1 : win0_3.index t (1 : Fin 2) = 0 := (block_indices t).2.2.2.2.2.2.2.1
  funext y
  unfold iblk0
  rw [View.read_apply]
  show V c main_v0 _ = V c main_v0 _
  congr 1
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

/-- The message layer's weight rows meeting the second endpoint are read whole at every point. -/
theorem weights_tgt_block (c : Dev nD) (t : Fin cfg0.N) :
    (iblk0 V c 4 t : Vec Ideal S64x64 .f32) = (V c main_v1 : S64x64.Idx → EReal) := by
  have e0 : win0_4.index t (0 : Fin 2) = 0 := (block_indices t).2.2.2.2.2.2.2.2.1
  have e1 : win0_4.index t (1 : Fin 2) = 0 := (block_indices t).2.2.2.2.2.2.2.2.2.1
  funext y
  unfold iblk0
  rw [View.read_apply]
  show V c main_v1 _ = V c main_v1 _
  congr 1
  funext a
  apply Fin.ext
  match a with
  | ⟨0, _⟩ => show win0_4.index t 0 * 64 + 1 * (y 0).val = (y 0).val; rw [e0]; omega
  | ⟨1, _⟩ => show win0_4.index t 1 * 64 + 1 * (y 1).val = (y 1).val; rw [e1]; omega

/-- The logit layer's weight rows meeting the first endpoint are read whole at every point. -/
theorem logit_weights_src_block (c : Dev nD) (t : Fin cfg0.N) :
    (iblk0 V c 5 t : Vec Ideal S64x1 .f32) = (V c main_v2 : S64x1.Idx → EReal) := by
  have e0 : win0_5.index t (0 : Fin 2) = 0 := (block_indices t).2.2.2.2.2.2.2.2.2.2.1
  have e1 : win0_5.index t (1 : Fin 2) = 0 := (block_indices t).2.2.2.2.2.2.2.2.2.2.2.1
  funext y
  unfold iblk0
  rw [View.read_apply]
  show V c main_v2 _ = V c main_v2 _
  congr 1
  funext a
  apply Fin.ext
  match a with
  | ⟨0, _⟩ => show win0_5.index t 0 * 64 + 1 * (y 0).val = (y 0).val; rw [e0]; omega
  | ⟨1, _⟩ => show win0_5.index t 1 * 1 + 1 * (y 1).val = (y 1).val; rw [e1]; omega

/-- The logit layer's weight rows meeting the second endpoint are read whole at every point. -/
theorem logit_weights_tgt_block (c : Dev nD) (t : Fin cfg0.N) :
    (iblk0 V c 6 t : Vec Ideal S64x1 .f32) = (V c main_v3 : S64x1.Idx → EReal) := by
  have e0 : win0_6.index t (0 : Fin 2) = 0 := (block_indices t).2.2.2.2.2.2.2.2.2.2.2.2.1
  have e1 : win0_6.index t (1 : Fin 2) = 0 := (block_indices t).2.2.2.2.2.2.2.2.2.2.2.2.2.1
  funext y
  unfold iblk0
  rw [View.read_apply]
  show V c main_v3 _ = V c main_v3 _
  congr 1
  funext a
  apply Fin.ext
  match a with
  | ⟨0, _⟩ => show win0_6.index t 0 * 64 + 1 * (y 0).val = (y 0).val; rw [e0]; omega
  | ⟨1, _⟩ => show win0_6.index t 1 * 1 + 1 * (y 1).val = (y 1).val; rw [e1]; omega

/-- The message layer's bias row is read whole at every point. -/
theorem bias_block (c : Dev nD) (t : Fin cfg0.N) :
    (iblk0 V c 7 t : Vec Ideal S1x64 .f32) = (V c main_v4 : S1x64.Idx → EReal) := by
  have e0 : win0_7.index t (0 : Fin 2) = 0 := (block_indices t).2.2.2.2.2.2.2.2.2.2.2.2.2.2.1
  have e1 : win0_7.index t (1 : Fin 2) = 0 := (block_indices t).2.2.2.2.2.2.2.2.2.2.2.2.2.2.2.1
  funext y
  unfold iblk0
  rw [View.read_apply]
  show V c main_v4 _ = V c main_v4 _
  congr 1
  funext a
  apply Fin.ext
  match a with
  | ⟨0, _⟩ => show win0_7.index t 0 * 1 + 1 * (y 0).val = (y 0).val; rw [e0]; omega
  | ⟨1, _⟩ => show win0_7.index t 1 * 64 + 1 * (y 1).val = (y 1).val; rw [e1]; omega

/-- The logit layer's bias is read whole at every point. -/
theorem logit_bias_block (c : Dev nD) (t : Fin cfg0.N) :
    (iblk0 V c 8 t : Vec Ideal S1x1 .f32) = (V c main_v5 : S1x1.Idx → EReal) := by
  have e0 : win0_8.index t (0 : Fin 2) = 0 := (block_indices t).2.2.2.2.2.2.2.2.2.2.2.2.2.2.2.2.1
  have e1 : win0_8.index t (1 : Fin 2) = 0 := (block_indices t).2.2.2.2.2.2.2.2.2.2.2.2.2.2.2.2.2.1
  funext y
  unfold iblk0
  rw [View.read_apply]
  show V c main_v5 _ = V c main_v5 _
  congr 1
  funext a
  apply Fin.ext
  match a with
  | ⟨0, _⟩ => show win0_8.index t 0 * 1 + 1 * (y 0).val = (y 0).val; rw [e0]; omega
  | ⟨1, _⟩ => show win0_8.index t 1 * 1 + 1 * (y 1).val = (y 1).val; rw [e1]; omega

/-! ## The message array after the region -/

/-- What the message window's array ends holding. -/
abbrev messagesOf (c : Dev nD) : S65536x64.Idx → EReal :=
  fun i => message (V c main_arg1) (V c main_arg2) (V c main_arg0) (V c main_v0) (V c main_v1) (V c main_v4) (i 0) (i 1)

/-- What point t writes back to the message array is block t of the layer's messages. -/
theorem messages_flushed (c : Dev nD) (t : Fin cfg0.N) :
    (dat0 (F := Ideal) V c).flushed 9 t = ((cfg0.win 9).blk t).view.read (Elt Ideal) (messagesOf V c) := by
  show (cfg0.win 9).cut (grid0.coords t) ((dat0 (F := Ideal) V c).after 9 t) = _
  rw [after0_9]
  unfold out0_9
  rw [View.canon_unit_zero zero_offsets]
  simp only [View.ld_unit_zero (S := S2048x512) zero_offsets, View.ld_unit_zero (S := S2048x64) zero_offsets,
    View.ld_unit_zero (S := S64x64) zero_offsets, View.ld_unit_zero (S := S1x64) zero_offsets]
  rw [features_block V c t, weights_src_block V c t, weights_tgt_block V c t, bias_block V c t]
  have e0 : win0_9.index t (0 : Fin 2) = t.val := (block_indices t).2.2.2.2.2.2.2.2.2.2.2.2.2.2.2.2.2.2.1
  have e1 : win0_9.index t (1 : Fin 2) = 0 := (block_indices t).2.2.2.2.2.2.2.2.2.2.2.2.2.2.2.2.2.2.2.1
  funext j
  rw [View.read_apply]
  refine message_tile_eq (V c main_arg1) (V c main_arg2) (V c main_arg0) (V c main_v0) (V c main_v1) (V c main_v4)
    (iblk0 V c 0 t) (iblk0 V c 1 t) t.val j (((cfg0.win 9).blk t).view.emb j) (src_tile_apply V c t) (tgt_tile_apply V c t) ?_ ?_
  · show win0_9.index t 0 * 512 + 1 * (j 0).val = 512 * t.val + (j 0).val
    rw [e0]; omega
  · show win0_9.index t 1 * 64 + 1 * (j 1).val = (j 1).val
    rw [e1]; omega

/-- Every row e of the message array lies in the block of point e / 512, and every point writes its block back. -/
theorem messages_cover (i : S65536x64.Idx) :
    ∃ t : Fin cfg0.N, (cfg0.win 9).flush t = true ∧ i ∈ ((cfg0.win 9).blk t).view.set := by
  have hN : cfg0.N = 128 := N_0
  have hi0 : (i 0).val < 65536 := (i 0).isLt
  have hi1 : (i 1).val < 64 := (i 1).isLt
  refine ⟨⟨(i 0).val / 512, by rw [hN]; omega⟩, flush0_9 _, ?_⟩
  generalize ht : (⟨(i 0).val / 512, by rw [hN]; omega⟩ : Fin cfg0.N) = t
  have htv : t.val = (i 0).val / 512 := by rw [← ht]
  have e0 : win0_9.index t (0 : Fin 2) = t.val := (block_indices t).2.2.2.2.2.2.2.2.2.2.2.2.2.2.2.2.2.2.1
  have e1 : win0_9.index t (1 : Fin 2) = 0 := (block_indices t).2.2.2.2.2.2.2.2.2.2.2.2.2.2.2.2.2.2.2.1
  show i ∈ ((View.whole main_v6_0).slice (win0_9.rect t)).set
  rw [View.set_slice_whole, Rect.mem_set_unit]
  intro a
  match a with
  | ⟨0, _⟩ => show win0_9.index t 0 * 512 ≤ (i 0).val ∧ (i 0).val < win0_9.index t 0 * 512 + 512; rw [e0]; omega
  | ⟨1, _⟩ => show win0_9.index t 1 * 64 ≤ (i 1).val ∧ (i 1).val < win0_9.index t 1 * 64 + 64; rw [e1]; omega

theorem messages_eq (c : Dev nD) :
    (dat0 (F := Ideal) V c).arrAt 9 cfg0.N
      = fun i => message (V c main_arg1) (V c main_arg2) (V c main_arg0) (V c main_v0) (V c main_v1) (V c main_v4) (i 0) (i 1) :=
  (dat0 (F := Ideal) V c).arrAt_eq_of_cover 9 (messagesOf V c) (fun t _ => messages_flushed V c t) messages_cover

/-! ## The logit array after the region -/

/-- What the logit window's array ends holding. -/
abbrev logitsOf (c : Dev nD) : S65536x1.Idx → EReal :=
  fun i => logit (V c main_arg1) (V c main_arg2) (V c main_arg0) (V c main_v2) (V c main_v3) (V c main_v5) (i 0)

/-- What point t writes back to the logit array is block t of the layer's logits. -/
theorem logits_flushed (c : Dev nD) (t : Fin cfg0.N) :
    (dat0 (F := Ideal) V c).flushed 10 t = ((cfg0.win 10).blk t).view.read (Elt Ideal) (logitsOf V c) := by
  show (cfg0.win 10).cut (grid0.coords t) ((dat0 (F := Ideal) V c).after 10 t) = _
  rw [after0_10]
  unfold out0_10
  rw [View.canon_unit_zero zero_offsets]
  simp only [View.ld_unit_zero (S := S2048x512) zero_offsets, View.ld_unit_zero (S := S2048x64) zero_offsets,
    View.ld_unit_zero (S := S64x1) zero_offsets, View.ld_unit_zero (S := S1x1) zero_offsets]
  rw [features_block V c t, logit_weights_src_block V c t, logit_weights_tgt_block V c t, logit_bias_block V c t]
  have e0 : win0_10.index t (0 : Fin 2) = t.val := (block_indices t).2.2.2.2.2.2.2.2.2.2.2.2.2.2.2.2.2.2.2.2.1
  funext j
  rw [View.read_apply]
  refine logit_tile_eq (V c main_arg1) (V c main_arg2) (V c main_arg0) (V c main_v2) (V c main_v3) (V c main_v5)
    (iblk0 V c 0 t) (iblk0 V c 1 t) t.val j (((cfg0.win 10).blk t).view.emb j) (src_tile_apply V c t) (tgt_tile_apply V c t) ?_
  show win0_10.index t 0 * 512 + 1 * (j 0).val = 512 * t.val + (j 0).val
  rw [e0]; omega

/-- Every row e of the logit array lies in the block of point e / 512, and every point writes its block back. -/
theorem logits_cover (i : S65536x1.Idx) :
    ∃ t : Fin cfg0.N, (cfg0.win 10).flush t = true ∧ i ∈ ((cfg0.win 10).blk t).view.set := by
  have hN : cfg0.N = 128 := N_0
  have hi0 : (i 0).val < 65536 := (i 0).isLt
  have hi1 : (i 1).val < 1 := (i 1).isLt
  refine ⟨⟨(i 0).val / 512, by rw [hN]; omega⟩, flush0_10 _, ?_⟩
  generalize ht : (⟨(i 0).val / 512, by rw [hN]; omega⟩ : Fin cfg0.N) = t
  have htv : t.val = (i 0).val / 512 := by rw [← ht]
  have e0 : win0_10.index t (0 : Fin 2) = t.val := (block_indices t).2.2.2.2.2.2.2.2.2.2.2.2.2.2.2.2.2.2.2.2.1
  have e1 : win0_10.index t (1 : Fin 2) = 0 := (block_indices t).2.2.2.2.2.2.2.2.2.2.2.2.2.2.2.2.2.2.2.2.2
  show i ∈ ((View.whole main_v6_1).slice (win0_10.rect t)).set
  rw [View.set_slice_whole, Rect.mem_set_unit]
  intro a
  match a with
  | ⟨0, _⟩ => show win0_10.index t 0 * 512 ≤ (i 0).val ∧ (i 0).val < win0_10.index t 0 * 512 + 512; rw [e0]; omega
  | ⟨1, _⟩ => show win0_10.index t 1 * 1 ≤ (i 1).val ∧ (i 1).val < win0_10.index t 1 * 1 + 1; rw [e1]; omega

theorem logits_eq (c : Dev nD) :
    (dat0 (F := Ideal) V c).arrAt 10 cfg0.N
      = fun i => logit (V c main_arg1) (V c main_arg2) (V c main_arg0) (V c main_v2) (V c main_v3) (V c main_v5) (i 0) :=
  (dat0 (F := Ideal) V c).arrAt_eq_of_cover 10 (logitsOf V c) (fun t _ => logits_flushed V c t) logits_cover

end Cert.KernelIdeal.RegionA

end
-- ==== Proof.LibTileSum.lean ====
/-
  A sum over T · B consecutive positions is the sum, over T consecutive tiles of B positions, of each tile's sum:
  position e = s · B + r lies in tile s at offset r. Stated over the naturals below a bound (a summand given for
  every natural, its values past the bound never used) and over a finite index type of T · B positions.
-/
import Mathlib.Algebra.BigOperators.Fin
import Mathlib.Algebra.BigOperators.Intervals

namespace Cert.TileSum

/-- `∑ e < T · B, g e = ∑ s < T, ∑ r < B, g (s · B + r)`. -/
theorem sum_range_tiles {M : Type*} [AddCommMonoid M] (T B : ℕ) (g : ℕ → M) :
    ∑ e ∈ Finset.range (T * B), g e = ∑ s ∈ Finset.range T, ∑ r ∈ Finset.range B, g (s * B + r) := by
  induction T with
  | zero => simp
  | succ T ih => rw [Nat.succ_mul, Finset.sum_range_add, ih, Finset.sum_range_succ]

/-- The same with the positions a finite type: `f` on `Fin (T · B)` is `g` on the naturals below `T · B`. -/
theorem sum_fin_tiles {M : Type*} [AddCommMonoid M] (T B : ℕ) (f : Fin (T * B) → M) (g : ℕ → M)
    (hg : ∀ e : Fin (T * B), f e = g e.val) :
    ∑ e, f e = ∑ s ∈ Finset.range T, ∑ r ∈ Finset.range B, g (s * B + r) := by
  rw [← sum_range_tiles, ← Fin.sum_univ_eq_sum_range]
  exact Finset.sum_congr rfl fun e _ => hg e

end Cert.TileSum
-- ==== Proof.RegionB.lean ====
/-
  The second region of the layer: every node's denominator.

  The region walks the 65536 edges in 64 tiles of 1024. At tile t it holds the columns 1024·t … 1024·t + 1023 of the
  targets' incidence matrix (a [2048, 1024] block), the same tile of the logits (a [1024, 1] block) and the mean
  logit, and it carries ONE [2048, 1] block across the tiles: zeroed at the first tile, and at every tile increased
  by the product of the incidence block with the tile's weights exp (a[e] − μ),
      acc[n] ← acc[n] + ∑ r < 1024, tgt[n, 1024·t + r] · exp (a[1024·t + r] − μ).
  After the last tile the block is written back as the result array. So the array ends holding
      0 + ∑ t < 64, ∑ r < 1024, tgt[n, 1024·t + r] · exp (a[1024·t + r] − μ)  =  ∑ e < 65536, tgt[n, e] · exp (a[e] − μ),
  node n's denominator: the tiles' sums re-indexed by e = 1024·t + r, and the zero dropped.

  Below, in this order: what one tile leaves in the carried block (the update of what it found; at the first tile
  the update of the zero block); the update at an index, as the sum above; the windows' blocks read as entries of
  the arrays; the tile sums as sums over the naturals, where the re-indexing is plain; the fold over the 64 tiles;
  and the write-back, whose one block is the whole array.
-/
import proofs.«111324_j36816459661559_1_alg».proof.Proof.Gen.KernelIdeal.Frame
import proofs.«111324_j36816459661559_1_alg».proof.Proof.Spec
import proofs.«111324_j36816459661559_1_alg».proof.Proof.LibPlainDot
import proofs.«111324_j36816459661559_1_alg».proof.Proof.LibTransDot
import proofs.«111324_j36816459661559_1_alg».proof.Proof.LibTileSum
import Idealize.ShloMosaic.Lib.Pipeline.Value
import Idealize.ShloMosaic.Lib.ValueLayout
import Idealize.ShloMosaic.Lib.Tactic

noncomputable section

namespace Cert.KernelIdeal.RegionB

open Idealize.ShloMosaic Idealize.ShloMosaic.TcCoe Idealize.SL.Sem Idealize.ShloMosaic.ValueIdx
open Idealize.ShloMosaic.Pipeline (Dat)
open Cert.KernelIdeal Cert.KernelIdeal.Gen Cert.EdgeAttention

/-- The offsets of every access in the body: both zero. -/
theorem hz : (![0, 0] : Fin 2 → Nat) = fun _ => 0 := funext fun a => by fin_cases a <;> rfl

/-! ## What one tile leaves in the carried block -/

section Pieces

variable {F : FTy → Type} [FloatOps F]

/-- A tile other than the first: the body reads the three input blocks and the carried block `xo` whole, and its one
    store, which covers the carried block, leaves the update of `xo`. -/
theorem out_B (c : Dev nD) (i : grid1.Coords) (a1 : Memref sig .tc .vmem S2048x1024 .f32) (h1 : a1.IsWhole)
    (a2 : Memref sig .tc .vmem S1024x1 .f32) (h2 : a2.IsWhole) (a3 : Memref sig .tc .vmem S1x1 .f32) (h3 : a3.IsWhole)
    (a4 : Memref sig .tc .vmem S2048x1 .f32) (h4 : a4.IsWhole) (hc : ¬cond1_0 i)
    (x0 : Vec F S2048x1024 .f32) (x1 : Vec F S1024x1 .f32) (x2 : Vec F S1x1 .f32) (xo : Vec F S2048x1 .f32) :
    out1_B_3 c i a1 h1 a2 h2 a3 h3 a4 h4 hc x0 x1 x2 xo = k1_pay2 x0 x1 x2 xo := by
  unfold out1_B_3
  rw [View.read_writes_eq_canon _ _ _ (cover1_B_3 c i a1 h1 a2 h2 a3 h3 a4 h4 hc x0 x1 x2 xo)]
  unfold kernelRun1_B
  dsimp only
  sl_unfold_words
  rw [View.canon_unit_zero hz]
  simp only [View.readAt_eq_ld, h1.read_unread, h2.read_unread, h3.read_unread, h4.read_unread,
    View.ld_unit_zero (S := S2048x1024) hz, View.ld_unit_zero (S := S1024x1) hz, View.ld_unit_zero (S := S1x1) hz,
    View.ld_unit_zero (S := S2048x1) hz]

/-- The first tile: the body stores the zero block over the carried block, reads it back, and its second store, which
    covers the block again, leaves the update of the zero block. -/
theorem out_A (c : Dev nD) (i : grid1.Coords) (a1 : Memref sig .tc .vmem S2048x1024 .f32) (h1 : a1.IsWhole)
    (a2 : Memref sig .tc .vmem S1024x1 .f32) (h2 : a2.IsWhole) (a3 : Memref sig .tc .vmem S1x1 .f32) (h3 : a3.IsWhole)
    (a4 : Memref sig .tc .vmem S2048x1 .f32) (h4 : a4.IsWhole) (hc : cond1_0 i)
    (x0 : Vec F S2048x1024 .f32) (x1 : Vec F S1024x1 .f32) (x2 : Vec F S1x1 .f32) :
    out1_A_3 c i a1 h1 a2 h2 a3 h3 a4 h4 hc x0 x1 x2 = k1_pay2 x0 x1 x2 (k1_pay1 (F := F)) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S2048x1) hz, View.readCov_unit_zero (S := S2048x1) _ hz]
  simp only [View.readAt_eq_ld, h1.read_unread, h2.read_unread, h3.read_unread,
    View.ld_unit_zero (S := S2048x1024) hz, View.ld_unit_zero (S := S1024x1) hz, View.ld_unit_zero (S := S1x1) hz]

end Pieces

/-! ## The update at an index -/

/-- The dimension numbers of the body's product are those of a plain matrix product. -/
theorem plain : Cert.PlainDot.Plain dot_S2048x1024_S1024x1_S2048x1_1_0_0_1_n_n := ⟨rfl, rfl, rfl, rfl, rfl, rfl⟩

/-- The zero block is zero at every index. -/
theorem pay1_apply (i : S2048x1.Idx) : k1_pay1 (F := Ideal) i = 0 := by
  unfold k1_pay1
  exact Ideal.ofBits_zero_f32

/-- The update at row p, over the extended reals: what the block held there plus the product's entry, the sum over
    the tile's 1024 positions of the incidence entry times the exponential of the logit less the mean (the mean, a
    one-by-one block, is read at its one entry wherever it is broadcast). -/
theorem pay2_apply (x0 : Vec Ideal S2048x1024 .f32) (x1 : Vec Ideal S1024x1 .f32) (x2 : Vec Ideal S1x1 .f32)
    (acc : Vec Ideal S2048x1 .f32) (p : Fin 2048) :
    k1_pay2 (F := Ideal) x0 x1 x2 acc (ix2 p 0)
      = acc (ix2 p 0) + ∑ κ : Fin 1024, x0 (ix2 p κ) * Ideal.exp (x1 (ix2 κ 0) - x2 (ix2 0 0)) := by
  unfold k1_pay2
  simp only [shapeCast_self]
  rw [addf_apply]
  refine congrArg (acc (ix2 p 0) + ·) ?_
  refine (Cert.PlainDot.matmul_zero_apply plain (by decide) (by decide) none _ _ p 0).trans ?_
  refine Finset.sum_congr rfl fun κ _ => ?_
  rw [truncf_apply, truncf_apply]
  show x0 (ix2 p κ) * Ideal.exp (x1 (ix2 κ 0) - broadcastTo S1024x1 x2 broadcasts_S1x1_S1024x1 (ix2 κ 0)) = _
  rw [broadcastTo_apply x2 _ (ix2 κ 0) (ix2 0 0) (fun a => by fin_cases a <;> rfl)]

/-! ## The windows' blocks, read as entries of the arrays -/

variable (V : (c : Dev nD) → (b : Ref sig .tc) → Buf (Elt Ideal) ((c : Thread nD τ).loc b))

/-- The three arrays the region reads, as matrices of extended reals: the incidence matrix of the edges' targets, -/
abbrev tgtArr (c : Dev nD) : Mat 2048 65536 := V c main_arg2
/-- the edges' logits, -/
abbrev logitArr (c : Dev nD) : Mat 65536 1 := V c main_v6_1
/-- and their mean. -/
abbrev meanArr (c : Dev nD) : Mat 1 1 := V c main_v10

/-- The blocks of the three at tile t. -/
abbrev tgtBlk (c : Dev nD) (t : Fin cfg1.N) : Vec Ideal S2048x1024 .f32 := iblk1 V c 0 t
abbrev logitBlk (c : Dev nD) (t : Fin cfg1.N) : Vec Ideal S1024x1 .f32 := iblk1 V c 1 t
abbrev meanBlk (c : Dev nD) (t : Fin cfg1.N) : Vec Ideal S1x1 .f32 := iblk1 V c 2 t

/-- The block indices at tile t: the incidence block is column block t, the logit block row block t, the mean and
    the result are whole. -/
theorem idx_facts : ∀ t : Fin cfg1.N,
    win1_0.index t 0 = 0 ∧ win1_0.index t 1 = t.val ∧ win1_1.index t 0 = t.val ∧ win1_1.index t 1 = 0
      ∧ win1_2.index t 0 = 0 ∧ win1_2.index t 1 = 0 :=
  (by decide +kernel : ∀ t : Fin grid1.N, _)

/-- Entry (p, r) of the incidence block at tile t is entry (p, 1024·t + r) of the incidence matrix. -/
theorem tgtBlk_apply (c : Dev nD) (t : Fin cfg1.N) (p : Fin 2048) (r : Fin 1024) (e : Fin 65536)
    (he : e.val = t.val * 1024 + r.val) : tgtBlk V c t (ix2 p r) = tgtArr V c (ix2 p e) := by
  unfold tgtBlk iblk1
  rw [View.read_apply]
  show V c main_arg2 _ = V c main_arg2 _
  congr 1
  funext a
  apply Fin.ext
  match a with
  | ⟨0, _⟩ => show win1_0.index t 0 * 2048 + 1 * p.val = p.val; rw [(idx_facts t).1]; omega
  | ⟨1, _⟩ => show win1_0.index t 1 * 1024 + 1 * r.val = e.val; rw [(idx_facts t).2.1, he]; omega

/-- Entry r of the logit block at tile t is logit 1024·t + r. -/
theorem logitBlk_apply (c : Dev nD) (t : Fin cfg1.N) (r : Fin 1024) (e : Fin 65536)
    (he : e.val = t.val * 1024 + r.val) : logitBlk V c t (ix2 r 0) = logitArr V c (ix2 e 0) := by
  unfold logitBlk iblk1
  rw [View.read_apply]
  show V c main_v6_1 _ = V c main_v6_1 _
  congr 1
  funext a
  apply Fin.ext
  match a with
  | ⟨0, _⟩ => show win1_1.index t 0 * 1024 + 1 * r.val = e.val; rw [(idx_facts t).2.2.1, he]; omega
  | ⟨1, _⟩ => show win1_1.index t 1 * 1 + 1 * 0 = 0; rw [(idx_facts t).2.2.2.1]

/-- The mean's block is the mean. -/
theorem meanBlk_apply (c : Dev nD) (t : Fin cfg1.N) : meanBlk V c t (ix2 0 0) = meanArr V c (ix2 0 0) := by
  unfold meanBlk iblk1
  rw [View.read_apply]
  show V c main_v10 _ = V c main_v10 _
  congr 1
  funext a
  apply Fin.ext
  match a with
  | ⟨0, _⟩ => show win1_2.index t 0 * 1 + 1 * 0 = 0; rw [(idx_facts t).2.2.2.2.1]
  | ⟨1, _⟩ => show win1_2.index t 1 * 1 + 1 * 0 = 0; rw [(idx_facts t).2.2.2.2.2]

/-! ## The tile sums, over the naturals -/

/-- Edge e's summand of node p's denominator, tgt[p, e] · exp (a[e] − μ), as a function of two naturals: zero off the
    index ranges, where it is never read. -/
def term (c : Dev nD) (p e : ℕ) : EReal :=
  if h : p < 2048 ∧ e < 65536 then
    tgtArr V c (ix2 ⟨p, h.1⟩ ⟨e, h.2⟩) * weight (logitArr V c) (meanArr V c) ⟨e, h.2⟩
  else 0

/-- Node p's denominator is the sum of its summands over the first 65536 naturals. -/
theorem denominator_eq_range (c : Dev nD) (p : Fin 2048) :
    denominator (tgtArr V c) (logitArr V c) (meanArr V c) p = ∑ e ∈ Finset.range 65536, term V c p.val e := by
  unfold denominator
  rw [← Fin.sum_univ_eq_sum_range (fun e => term V c p.val e) 65536]
  refine Finset.sum_congr rfl fun e _ => ?_
  unfold term
  rw [dif_pos ⟨p.isLt, e.isLt⟩]

/-- The product's entry at tile t, row p, is the sum of node p's summands over the tile's 1024 edges. -/
theorem tile_eq_range (c : Dev nD) (t : Fin cfg1.N) (p : Fin 2048) :
    ∑ κ : Fin 1024, tgtBlk V c t (ix2 p κ) * Ideal.exp (logitBlk V c t (ix2 κ 0) - meanBlk V c t (ix2 0 0))
      = ∑ κ ∈ Finset.range 1024, term V c p.val (t.val * 1024 + κ) := by
  have hN : t.val < 64 := lt_of_lt_of_eq t.isLt (show cfg1.N = 64 from N_1)
  rw [← Fin.sum_univ_eq_sum_range (fun κ => term V c p.val (t.val * 1024 + κ)) 1024]
  refine Finset.sum_congr rfl fun κ _ => ?_
  have hκ : t.val * 1024 + κ.val < 65536 := by have := κ.isLt; omega
  rw [tgtBlk_apply V c t p κ ⟨t.val * 1024 + κ.val, hκ⟩ rfl, logitBlk_apply V c t κ ⟨t.val * 1024 + κ.val, hκ⟩ rfl,
    meanBlk_apply V c t]
  unfold term
  rw [dif_pos ⟨p.isLt, hκ⟩]
  rfl

/-! ## The carried block: the fold over the 64 tiles -/

/-- Tile n's addend to the carried block, at index i: node i₀'s summands over the tile's 1024 edges. -/
def addend (c : Dev nD) (n : ℕ) (i : S2048x1.Idx) : EReal :=
  ∑ κ ∈ Finset.range 1024, term V c (i 0).val (n * 1024 + κ)

/-- One tile's update, at an index: what the block held plus the tile's addend. -/
theorem step_apply (c : Dev nD) (t : Fin cfg1.N) (acc : Vec Ideal S2048x1 .f32) (i : S2048x1.Idx) :
    k1_pay2 (F := Ideal) (tgtBlk V c t) (logitBlk V c t) (meanBlk V c t) acc i = acc i + addend V c t.val i := by
  have h1 : i 1 = (0 : Fin 1) := Fin.ext (by have := idx2_lt1 i; show (i 1).val = 0; omega)
  obtain ⟨p, rfl⟩ : ∃ p : Fin 2048, i = ix2 p 0 := ⟨i 0, (eq_ix2 i).trans (congrArg (ix2 (i 0)) h1)⟩
  refine (pay2_apply (tgtBlk V c t) (logitBlk V c t) (meanBlk V c t) acc p).trans ?_
  exact congrArg (acc (ix2 p 0) + ·) (tile_eq_range V c t p)

/-- After the first tile the block is the update of the zero block. -/
theorem outsAt_reset (c : Dev nD) (n : ℕ) (hn : n < cfg1.N) (h0 : n % 64 = 0) :
    outsAt1 V c n hn
      = k1_pay2 (F := Ideal) (tgtBlk V c ⟨n, hn⟩) (logitBlk V c ⟨n, hn⟩) (meanBlk V c ⟨n, hn⟩)
          (k1_pay1 (F := Ideal)) :=
  (outsAt1_A V c ⟨n, hn⟩ h0).trans
    (out_A c (grid1.coords ⟨n, hn⟩) (ms1_0 ⟨n, hn⟩) (hs1_0 ⟨n, hn⟩) (ms1_1 ⟨n, hn⟩) (hs1_1 ⟨n, hn⟩) (ms1_2 ⟨n, hn⟩)
      (hs1_2 ⟨n, hn⟩) (ms1_3 ⟨n, hn⟩) (hs1_3 ⟨n, hn⟩) ((hcond1_0 ⟨n, hn⟩).mpr h0) (iblk1 V c 0 ⟨n, hn⟩)
      (iblk1 V c 1 ⟨n, hn⟩) (iblk1 V c 2 ⟨n, hn⟩))

/-- After every later tile the block is the update of what the tile before left. -/
theorem outsAt_step (c : Dev nD) (n : ℕ) (hn : n + 1 < cfg1.N) (hne : ¬(n + 1) % 64 = 0) :
    outsAt1 V c (n + 1) hn
      = k1_pay2 (F := Ideal) (tgtBlk V c ⟨n + 1, hn⟩) (logitBlk V c ⟨n + 1, hn⟩) (meanBlk V c ⟨n + 1, hn⟩)
          (outsAt1 V c n (Nat.lt_of_succ_lt hn)) :=
  (outsAt1_B V c ⟨n + 1, hn⟩ hne).trans
    (out_B c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (ms1_3 ⟨n + 1, hn⟩) (hs1_3 ⟨n + 1, hn⟩)
      (fun h => hne ((hcond1_0 ⟨n + 1, hn⟩).mp h)) (iblk1 V c 0 ⟨n + 1, hn⟩) (iblk1 V c 1 ⟨n + 1, hn⟩)
      (iblk1 V c 2 ⟨n + 1, hn⟩) (outsAt1 V c n (Nat.lt_of_succ_lt hn)))

/-- The first tile's block and a later tile's update, as functions of the tile. -/
abbrev resetAt (c : Dev nD) : (n : ℕ) → n < cfg1.N → Vec Ideal S2048x1 .f32 := fun n hn =>
  k1_pay2 (F := Ideal) (tgtBlk V c ⟨n, hn⟩) (logitBlk V c ⟨n, hn⟩) (meanBlk V c ⟨n, hn⟩) (k1_pay1 (F := Ideal))
abbrev stepAt (c : Dev nD) : (n : ℕ) → n < cfg1.N → Vec Ideal S2048x1 .f32 → Vec Ideal S2048x1 .f32 := fun n hn acc =>
  k1_pay2 (F := Ideal) (tgtBlk V c ⟨n, hn⟩) (logitBlk V c ⟨n, hn⟩) (meanBlk V c ⟨n, hn⟩) acc

/-- After the last tile the block holds every node's denominator: the zero block plus the 64 tiles' addends, which
    together run over all 65536 edges (edge e = 1024·t + r is position r of tile t), and zero plus a sum is the sum. -/
theorem outsAt_last (c : Dev nD) (h : 63 < cfg1.N) (i : S2048x1.Idx) :
    outsAt1 V c 63 h i = denominator (tgtArr V c) (logitArr V c) (meanArr V c) (i 0) := by
  have e1 : outsAt1 V c 63 h = Pipeline.accAt (N := cfg1.N) (resetAt V c) (stepAt V c) 0 63 h :=
    Pipeline.eq_accAt (N := cfg1.N) (outsAt1 V c) 64 (resetAt V c) (stepAt V c) (outsAt_reset V c) (outsAt_step V c)
      0 63 (by omega) h
  have e2 : Pipeline.accAt (N := cfg1.N) (resetAt V c) (stepAt V c) 0 63 h i
      = k1_pay1 (F := Ideal) i + ∑ s ∈ Finset.range (63 + 1), addend V c (0 + s) i :=
    Pipeline.accAt_add_apply (N := cfg1.N) (ι := S2048x1.Idx) (β := EReal) (resetAt V c) (stepAt V c)
      (k1_pay1 (F := Ideal)) (addend V c) 0 63
      (fun h i => step_apply V c ⟨0, h⟩ (k1_pay1 (F := Ideal)) i)
      (fun n h acc i _ _ => step_apply V c ⟨n, h⟩ acc i)
      63 le_rfl h i
  rw [e1, e2, pay1_apply, zero_add]
  refine Eq.trans ?_ (denominator_eq_range V c (i 0)).symm
  simp only [Nat.zero_add]
  unfold addend
  exact (Cert.TileSum.sum_range_tiles 64 1024 (term V c (i 0).val)).symm

/-! ## The array the region leaves -/

/-- The last tile, the one point that writes the block back. -/
abbrev tLast : Fin cfg1.N := ⟨63, by rw [show cfg1.N = 64 from N_1]; decide⟩

/-- Every node's denominator, as contents of the result array. -/
abbrev result (c : Dev nD) : Buf (Elt Ideal) ((c : Thread nD τ).loc main_v11) :=
  fun i => denominator (tgtArr V c) (logitArr V c) (meanArr V c) (i 0)

/-- The one write-back writes it: the output's one block, read through zero offsets, is the whole array. -/
theorem flushed_eq (c : Dev nD) (t : Fin cfg1.N) (hf : (cfg1.win 3).flush t = true) :
    (dat1 V c).flushed 3 t = ((cfg1.win 3).blk t).view.read (Elt Ideal) (result V c) := by
  have hN : cfg1.N = 64 := N_1
  have h63 : t.val = 63 := by have := (flush1_3 t).mp hf; have := t.isLt; omega
  obtain rfl : t = tLast := Fin.ext h63
  show (cfg1.win 3).cut (grid1.coords tLast) ((dat1 V c).after 3 tLast) = _
  rw [after1_3, show outsAt1 V c tLast.val tLast.isLt = result V c from funext (outsAt_last V c tLast.isLt)]
  have hz' : (fun a => win1_3.index tLast a * main_v11.ty.shape.size a) = fun _ => 0 :=
    funext fun a => by fin_cases a <;> decide +kernel
  exact (Memref.read_access_unit_zero (Elt Ideal) main_v11 hz' (fun a => by rw [congrFun hz' a]; simp) (result V c)).symm

/-- So the result array ends holding every node's denominator: the last tile's block covers it. -/
theorem denominators_eq (c : Dev nD) :
    (dat1 (F := Ideal) V c).arrAt 3 cfg1.N
      = fun i => denominator (V c main_arg2) (V c main_v6_1) (V c main_v10) (i 0) :=
  (dat1 V c).arrAt_eq_of_cover 3 (result V c) (flushed_eq V c) fun i =>
    ⟨tLast, (flush1_3 tLast).mpr rfl, by
      show i ∈ ((View.whole main_v11).slice (win1_3.rect tLast)).set
      rw [View.set_slice_whole, Rect.mem_set_unit]
      intro a
      have h0 : (i 0 : Nat) < 2048 := (i 0).isLt
      have h1 : (i 1 : Nat) < 1 := (i 1).isLt
      match a with
      | ⟨0, _⟩ =>
        show win1_3.index tLast 0 * win1_3.size 0 ≤ (i 0 : Nat)
          ∧ (i 0 : Nat) < win1_3.index tLast 0 * win1_3.size 0 + win1_3.xsize (grid1.coords tLast) 0
        rw [show win1_3.index tLast 0 * win1_3.size 0 = 0 from by decide +kernel,
          show win1_3.xsize (grid1.coords tLast) 0 = 2048 from by decide +kernel]
        omega
      | ⟨1, _⟩ =>
        show win1_3.index tLast 1 * win1_3.size 1 ≤ (i 1 : Nat)
          ∧ (i 1 : Nat) < win1_3.index tLast 1 * win1_3.size 1 + win1_3.xsize (grid1.coords tLast) 1
        rw [show win1_3.index tLast 1 * win1_3.size 1 = 0 from by decide +kernel,
          show win1_3.xsize (grid1.coords tLast) 1 = 1 from by decide +kernel]
        omega⟩

end Cert.KernelIdeal.RegionB

end
-- ==== Proof.RegionC.lean ====
/-
  The third stage of the edge-attention layer: the attention-weighted messages summed into the nodes.

  The edges are visited in 64 tiles of 1024. At tile t the computation reads the incidence columns, the logits and
  the messages of edges 1024·t … 1024·t + 1023, and the whole denominator column and mean; for each of these edges e
  it reads the edge's own denominator back through its incidence column, ∑ n', tgt[n', e] · d[n'], forms the
  normalised weight exp (a[e] − μ) / (that + ε), scales the message row y[e, ·] by it, and adds
  ∑ e in the tile, tgt[n, e] · (y[e, j] · weight e) to entry (n, j) of ONE running [2048, 64] block, which starts
  from zero at the first tile and is written out after the last. So the array ends at
      0 + ∑ t < 64, ∑ r < 1024, term (1024·t + r)  =  ∑ e < 65536, term e,
  the layer's output: the zero is the additive unit, and the 64 tiles of 1024 edges are the 65536 edges.
-/
import proofs.«111324_j36816459661559_1_alg».proof.Proof.Gen.KernelIdeal.Frame
import proofs.«111324_j36816459661559_1_alg».proof.Proof.Spec
import proofs.«111324_j36816459661559_1_alg».proof.Proof.LibPlainDot
import proofs.«111324_j36816459661559_1_alg».proof.Proof.LibTransDot
import Idealize.ShloMosaic.Lib.Pipeline.Value
import Idealize.ShloMosaic.Lib.ValueLayout
import Idealize.ShloMosaic.Lib.Tactic

noncomputable section

namespace Cert.KernelIdeal.RegionC

open Idealize.ShloMosaic Idealize.ShloMosaic.TcCoe Idealize.SL.Sem Idealize.ShloMosaic.ValueIdx
open Idealize.ShloMosaic.Pipeline (Dat)
open Cert.KernelIdeal Cert.KernelIdeal.Gen Cert.EdgeAttention

variable (V : (c : Dev nD) → (b : Ref sig .tc) → Buf (Elt Ideal) ((c : Thread nD τ).loc b))

section Pieces
variable {F : FTy → Type} [FloatOps F]

theorem hz : (![0, 0] : Fin 2 → Nat) = fun _ => 0 := funext fun a => by fin_cases a <;> rfl

theorem out_B (c : Dev nD) (i : grid2.Coords)
    (a1 : Memref sig .tc .vmem S2048x1024 .f32) (h1 : a1.IsWhole) (a2 : Memref sig .tc .vmem S1024x1 .f32) (h2 : a2.IsWhole)
    (a3 : Memref sig .tc .vmem S1024x64 .f32) (h3 : a3.IsWhole) (a4 : Memref sig .tc .vmem S2048x1 .f32) (h4 : a4.IsWhole)
    (a5 : Memref sig .tc .vmem S1x1 .f32) (h5 : a5.IsWhole) (a6 : Memref sig .tc .vmem S2048x64 .f32) (h6 : a6.IsWhole)
    (hc : ¬cond2_0 i)
    (x0 : Vec F S2048x1024 .f32) (x1 : Vec F S1024x1 .f32) (x2 : Vec F S1024x64 .f32) (x3 : Vec F S2048x1 .f32)
    (x4 : Vec F S1x1 .f32) (xo : Vec F S2048x64 .f32) :
    out2_B_5 c i a1 h1 a2 h2 a3 h3 a4 h4 a5 h5 a6 h6 hc x0 x1 x2 x3 x4 xo = k2_pay2 x0 x3 x1 x4 x2 xo := by
  unfold out2_B_5
  rw [View.read_writes_eq_canon _ _ _ (cover2_B_5 c i a1 h1 a2 h2 a3 h3 a4 h4 a5 h5 a6 h6 hc x0 x1 x2 x3 x4 xo)]
  unfold kernelRun2_B
  dsimp only
  sl_unfold_words
  rw [View.canon_unit_zero hz]
  simp only [View.readAt_eq_ld, h1.read_unread, h2.read_unread, h3.read_unread, h4.read_unread, h5.read_unread, h6.read_unread,
    View.ld_unit_zero (S := S2048x1024) hz, View.ld_unit_zero (S := S1024x1) hz, View.ld_unit_zero (S := S1024x64) hz,
    View.ld_unit_zero (S := S2048x1) hz, View.ld_unit_zero (S := S1x1) hz, View.ld_unit_zero (S := S2048x64) hz]

theorem out_A (c : Dev nD) (i : grid2.Coords)
    (a1 : Memref sig .tc .vmem S2048x1024 .f32) (h1 : a1.IsWhole) (a2 : Memref sig .tc .vmem S1024x1 .f32) (h2 : a2.IsWhole)
    (a3 : Memref sig .tc .vmem S1024x64 .f32) (h3 : a3.IsWhole) (a4 : Memref sig .tc .vmem S2048x1 .f32) (h4 : a4.IsWhole)
    (a5 : Memref sig .tc .vmem S1x1 .f32) (h5 : a5.IsWhole) (a6 : Memref sig .tc .vmem S2048x64 .f32) (h6 : a6.IsWhole)
    (hc : cond2_0 i)
    (x0 : Vec F S2048x1024 .f32) (x1 : Vec F S1024x1 .f32) (x2 : Vec F S1024x64 .f32) (x3 : Vec F S2048x1 .f32)
    (x4 : Vec F S1x1 .f32) :
    out2_A_5 c i a1 h1 a2 h2 a3 h3 a4 h4 a5 h5 a6 h6 hc x0 x1 x2 x3 x4 = k2_pay2 x0 x3 x1 x4 x2 (k2_pay1 (F := F)) := by
  unfold out2_A_5
  rw [View.read_writes_eq_canon _ _ _ (cover2_A_5 c i a1 h1 a2 h2 a3 h3 a4 h4 a5 h5 a6 h6 hc x0 x1 x2 x3 x4)]
  unfold kernelRun2_A
  dsimp only
  sl_unfold_words
  rw [View.canon_cons_unit_zero (S := S2048x64) hz, View.readCov_unit_zero (S := S2048x64) _ hz]
  simp only [View.readAt_eq_ld, h1.read_unread, h2.read_unread, h3.read_unread, h4.read_unread, h5.read_unread,
    View.ld_unit_zero (S := S2048x1024) hz, View.ld_unit_zero (S := S1024x1) hz, View.ld_unit_zero (S := S1024x64) hz,
    View.ld_unit_zero (S := S2048x1) hz, View.ld_unit_zero (S := S1x1) hz]

end Pieces

section Payload

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay2_apply (x0 : FVec Ideal S2048x1024 .f32) (xd : FVec Ideal S2048x1 .f32) (xa : FVec Ideal S1024x1 .f32)
    (xm : FVec Ideal S1x1 .f32) (xy : FVec Ideal S1024x64 .f32) (acc : FVec Ideal S2048x64 .f32) (n : Fin 2048) (j : Fin 64) :
    k2_pay2 x0 xd xa xm xy acc (ix2 n j)
      = acc (ix2 n j) + ∑ κ : Fin 1024, x0 (ix2 n κ) * (xy (ix2 κ j) *
          Ideal.div (Ideal.exp (xa (ix2 κ 0) - xm (ix2 0 0)))
            ((∑ n' : Fin 2048, x0 (ix2 n' κ) * xd (ix2 n' 0)) + Ideal.ofBits .f32 0x358637BD#32)) := by
  unfold k2_pay2
  simp only [shapeCast_self]
  rw [addf_apply]
  refine congrArg (acc (ix2 n j) + ·) ?_
  refine (Cert.PlainDot.matmul_zero_apply ⟨rfl, rfl, rfl, rfl, rfl, rfl⟩ rfl rfl none _ _ n j).trans ?_
  refine Finset.sum_congr rfl fun κ _ => ?_
  rw [truncf_apply, truncf_apply, mulf_apply, broadcastTo_a1_ab_apply, divf_apply]
  refine congrArg (x0 (ix2 n κ) * ·) (congrArg (xy (ix2 κ j) * ·) ?_)
  refine congrArg₂ Ideal.div ?_ ?_
  · show Ideal.exp (xa (ix2 κ 0) - broadcastTo S1024x1 xm broadcasts_S1x1_S1024x1 (ix2 κ 0)) = _
    rw [broadcastTo_1b_ab_apply]
  · rw [addf_apply, broadcast_apply]
    refine congrArg (· + Ideal.ofBits .f32 0x358637BD#32) ?_
    exact Cert.TransDot.matmul_zero_apply ⟨rfl, rfl, rfl, rfl, rfl, rfl⟩ rfl rfl none _ _ κ 0

end Payload

section Blocks

/-- The five arrays the region reads, at their literal matrix types. -/
abbrev tgtA (c : Dev nD) : Mat 2048 65536 := V c main_arg2
abbrev logA (c : Dev nD) : Mat 65536 1 := V c main_v6_1
abbrev msgA (c : Dev nD) : Mat 65536 64 := V c main_v6_0
abbrev denA (c : Dev nD) : Mat 2048 1 := V c main_v11
abbrev meanA (c : Dev nD) : Mat 1 1 := V c main_v10

/-- Their blocks at a grid point, at their literal vector types. -/
abbrev tgtB (c : Dev nD) (t : Fin cfg2.N) : FVec Ideal S2048x1024 .f32 := iblk2 (F := Ideal) V c 0 t
abbrev logB (c : Dev nD) (t : Fin cfg2.N) : FVec Ideal S1024x1 .f32 := iblk2 (F := Ideal) V c 1 t
abbrev msgB (c : Dev nD) (t : Fin cfg2.N) : FVec Ideal S1024x64 .f32 := iblk2 (F := Ideal) V c 2 t
abbrev denB (c : Dev nD) (t : Fin cfg2.N) : FVec Ideal S2048x1 .f32 := iblk2 (F := Ideal) V c 3 t
abbrev meanB (c : Dev nD) (t : Fin cfg2.N) : FVec Ideal S1x1 .f32 := iblk2 (F := Ideal) V c 4 t

/-- The index maps over the grid: the incidence block moves along the columns, the logit and message blocks along
    the rows, the other three windows stay at block (0, 0). -/
theorem idx_facts : ∀ t : Fin cfg2.N,
    (win2_0.index t 0 = 0 ∧ win2_0.index t 1 = t.val) ∧ (win2_1.index t 0 = t.val ∧ win2_1.index t 1 = 0)
    ∧ (win2_2.index t 0 = t.val ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0) :=
  (by decide +kernel : ∀ t : Fin grid2.N, _)

/-- Edge `1024·t + r` of the tile at point `t`. -/
abbrev edge (t : Fin cfg2.N) (r : Fin 1024) : Fin 65536 :=
  ⟨1024 * t.val + r.val, by have := lt_of_lt_of_eq t.isLt (show cfg2.N = 64 from N_2); have := r.isLt; omega⟩

theorem tgtB_apply (c : Dev nD) (t : Fin cfg2.N) (n : Fin 2048) (r : Fin 1024) :
    tgtB V c t (ix2 n r) = tgtA V c (ix2 n (edge t r)) := by
  show iblk2 (F := Ideal) V c 0 t (ix2 n r) = V c main_arg2 (ix2 n (edge t r))
  unfold iblk2
  rw [View.read_apply]
  show V c main_arg2 _ = V c main_arg2 _
  congr 1
  funext a
  apply Fin.ext
  match a with
  | ⟨0, _⟩ => show win2_0.index t 0 * 2048 + 1 * n.val = n.val; rw [(idx_facts t).1.1]; omega
  | ⟨1, _⟩ => show win2_0.index t 1 * 1024 + 1 * r.val = 1024 * t.val + r.val; rw [(idx_facts t).1.2]; omega

theorem logB_apply (c : Dev nD) (t : Fin cfg2.N) (r : Fin 1024) :
    logB V c t (ix2 r 0) = logA V c (ix2 (edge t r) 0) := by
  show iblk2 (F := Ideal) V c 1 t (ix2 r 0) = V c main_v6_1 (ix2 (edge t r) 0)
  unfold iblk2
  rw [View.read_apply]
  show V c main_v6_1 _ = V c main_v6_1 _
  congr 1
  funext a
  apply Fin.ext
  match a with
  | ⟨0, _⟩ => show win2_1.index t 0 * 1024 + 1 * r.val = 1024 * t.val + r.val; rw [(idx_facts t).2.1.1]; omega
  | ⟨1, _⟩ => show win2_1.index t 1 * 1 + 1 * 0 = 0; rw [(idx_facts t).2.1.2]

theorem msgB_apply (c : Dev nD) (t : Fin cfg2.N) (r : Fin 1024) (j : Fin 64) :
    msgB V c t (ix2 r j) = msgA V c (ix2 (edge t r) j) := by
  show iblk2 (F := Ideal) V c 2 t (ix2 r j) = V c main_v6_0 (ix2 (edge t r) j)
  unfold iblk2
  rw [View.read_apply]
  show V c main_v6_0 _ = V c main_v6_0 _
  congr 1
  funext a
  apply Fin.ext
  match a with
  | ⟨0, _⟩ => show win2_2.index t 0 * 1024 + 1 * r.val = 1024 * t.val + r.val; rw [(idx_facts t).2.2.1.1]; omega
  | ⟨1, _⟩ => show win2_2.index t 1 * 64 + 1 * j.val = j.val; rw [(idx_facts t).2.2.1.2]; omega

theorem denB_apply (c : Dev nD) (t : Fin cfg2.N) (n : Fin 2048) :
    denB V c t (ix2 n 0) = denA V c (ix2 n 0) := by
  show iblk2 (F := Ideal) V c 3 t (ix2 n 0) = V c main_v11 (ix2 n 0)
  unfold iblk2
  rw [View.read_apply]
  show V c main_v11 _ = V c main_v11 _
  congr 1
  funext a
  apply Fin.ext
  match a with
  | ⟨0, _⟩ => show win2_3.index t 0 * 2048 + 1 * n.val = n.val; rw [(idx_facts t).2.2.2.1.1]; omega
  | ⟨1, _⟩ => show win2_3.index t 1 * 1 + 1 * 0 = 0; rw [(idx_facts t).2.2.2.1.2]

theorem meanB_apply (c : Dev nD) (t : Fin cfg2.N) :
    meanB V c t (ix2 0 0) = meanA V c (ix2 0 0) := by
  show iblk2 (F := Ideal) V c 4 t (ix2 0 0) = V c main_v10 (ix2 0 0)
  unfold iblk2
  rw [View.read_apply]
  show V c main_v10 _ = V c main_v10 _
  congr 1
  funext a
  apply Fin.ext
  match a with
  | ⟨0, _⟩ => show win2_4.index t 0 * 1 + 1 * 0 = 0; rw [(idx_facts t).2.2.2.2.1.1]
  | ⟨1, _⟩ => show win2_4.index t 1 * 1 + 1 * 0 = 0; rw [(idx_facts t).2.2.2.2.1.2]

end Blocks

section Accumulate

/-- One edge's contribution to node `n`, column `j`: the summand of the layer's output. -/
def edgeTerm (c : Dev nD) (n : Fin 2048) (j : Fin 64) (e : Fin 65536) : EReal :=
  tgtA V c (ix2 n e) * (msgA V c (ix2 e j) * attention (tgtA V c) (logA V c) (denA V c) (meanA V c) e)

/-- The body at point `t` adds, to what it finds, the contributions of the 1024 edges of tile `t`. -/
theorem step_apply (c : Dev nD) (t : Fin cfg2.N) (acc : FVec Ideal S2048x64 .f32) (n : Fin 2048) (j : Fin 64) :
    k2_pay2 (tgtB V c t) (denB V c t) (logB V c t) (meanB V c t) (msgB V c t) acc (ix2 n j)
      = acc (ix2 n j) + ∑ r : Fin 1024, edgeTerm V c n j (edge t r) := by
  refine (pay2_apply (tgtB V c t) (denB V c t) (logB V c t) (meanB V c t) (msgB V c t) acc n j).trans ?_
  refine congrArg (acc (ix2 n j) + ·) (Finset.sum_congr rfl fun r _ => ?_)
  have hden : (∑ n' : Fin 2048, tgtB V c t (ix2 n' r) * denB V c t (ix2 n' 0))
      = ∑ n' : Fin 2048, tgtA V c (ix2 n' (edge t r)) * denA V c (ix2 n' 0) :=
    Finset.sum_congr rfl fun n' _ => by rw [tgtB_apply, denB_apply]
  rw [hden, tgtB_apply, msgB_apply, logB_apply, meanB_apply]
  rfl

end Accumulate

section Fold

/-- At a point where the block is reset, the body leaves the zero block plus that tile's contributions. -/
theorem outsAt_reset (c : Dev nD) (n : ℕ) (h : n < cfg2.N) (h0 : n % 64 = 0) :
    outsAt2 V c n h = k2_pay2 (F := Ideal) (tgtB V c ⟨n, h⟩) (denB V c ⟨n, h⟩) (logB V c ⟨n, h⟩) (meanB V c ⟨n, h⟩) (msgB V c ⟨n, h⟩) (k2_pay1 (F := Ideal)) :=
  (outsAt2_A V c ⟨n, h⟩ h0).trans
    (out_A (F := Ideal) c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩) (ms2_3 ⟨n, h⟩) (hs2_3 ⟨n, h⟩) (ms2_4 ⟨n, h⟩) (hs2_4 ⟨n, h⟩) (ms2_5 ⟨n, h⟩) (hs2_5 ⟨n, h⟩) ((hcond2_0 ⟨n, h⟩).mpr h0) (iblk2 (F := Ideal) V c 0 ⟨n, h⟩) (iblk2 (F := Ideal) V c 1 ⟨n, h⟩) (iblk2 (F := Ideal) V c 2 ⟨n, h⟩) (iblk2 (F := Ideal) V c 3 ⟨n, h⟩) (iblk2 (F := Ideal) V c 4 ⟨n, h⟩))

/-- At every other point it adds that tile's contributions to what the point before left. -/
theorem outsAt_step (c : Dev nD) (n : ℕ) (h : n + 1 < cfg2.N) (h0 : ¬(n + 1) % 64 = 0) :
    outsAt2 V c (n + 1) h = k2_pay2 (F := Ideal) (tgtB V c ⟨n + 1, h⟩) (denB V c ⟨n + 1, h⟩) (logB V c ⟨n + 1, h⟩) (meanB V c ⟨n + 1, h⟩) (msgB V c ⟨n + 1, h⟩) (outsAt2 V c n (Nat.lt_of_succ_lt h)) :=
  (outsAt2_B V c ⟨n + 1, h⟩ h0).trans
    (out_B (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (fun hc => h0 ((hcond2_0 ⟨n + 1, h⟩).mp hc)) (iblk2 (F := Ideal) V c 0 ⟨n + 1, h⟩) (iblk2 (F := Ideal) V c 1 ⟨n + 1, h⟩) (iblk2 (F := Ideal) V c 2 ⟨n + 1, h⟩) (iblk2 (F := Ideal) V c 3 ⟨n + 1, h⟩) (iblk2 (F := Ideal) V c 4 ⟨n + 1, h⟩)
      (outsAt2 V c n (Nat.lt_of_succ_lt h)))

/-- The contributions of the 1024 edges of tile `s` to an entry of the output (nothing past the grid). -/
def tileSum (c : Dev nD) (s : ℕ) (i : S2048x64.Idx) : EReal :=
  if h : s < cfg2.N then ∑ r : Fin 1024, edgeTerm V c (i 0) (i 1) (edge ⟨s, h⟩ r) else 0

theorem tile_eq (c : Dev nD) (s : ℕ) (h : s < cfg2.N) (acc : FVec Ideal S2048x64 .f32) (i : S2048x64.Idx) :
    k2_pay2 (F := Ideal) (tgtB V c ⟨s, h⟩) (denB V c ⟨s, h⟩) (logB V c ⟨s, h⟩) (meanB V c ⟨s, h⟩) (msgB V c ⟨s, h⟩) acc i = acc i + tileSum V c s i := by
  obtain ⟨n, j, rfl⟩ : ∃ (n : Fin 2048) (j : Fin 64), i = ix2 n j := ⟨i 0, i 1, eq_ix2 i⟩
  rw [step_apply]
  unfold tileSum
  rw [dif_pos h]

/-- After the last point the block holds the zero block plus the 64 tiles' contributions. -/
theorem outsAt_last (c : Dev nD) (h : 63 < cfg2.N) (i : S2048x64.Idx) :
    outsAt2 V c 63 h i = k2_pay1 (F := Ideal) i + ∑ s ∈ Finset.range 64, tileSum V c (0 + s) i := by
  have hfold := Pipeline.eq_accAt (N := cfg2.N) (outsAt2 V c) 64
    (fun n h => k2_pay2 (F := Ideal) (tgtB V c ⟨n, h⟩) (denB V c ⟨n, h⟩) (logB V c ⟨n, h⟩) (meanB V c ⟨n, h⟩) (msgB V c ⟨n, h⟩) (k2_pay1 (F := Ideal)))
    (fun n h acc => k2_pay2 (F := Ideal) (tgtB V c ⟨n, h⟩) (denB V c ⟨n, h⟩) (logB V c ⟨n, h⟩) (meanB V c ⟨n, h⟩) (msgB V c ⟨n, h⟩) acc)
    (fun n h h0 => outsAt_reset V c n h h0) (fun n h h0 => outsAt_step V c n h h0) 0 63 (by omega) h
  refine (congrFun hfold i).trans ?_
  exact Pipeline.accAt_add_apply (N := cfg2.N) _ _ (k2_pay1 (F := Ideal)) (tileSum V c) 0 63
    (fun h i => tile_eq V c 0 h _ i) (fun n h acc i _ _ => tile_eq V c n h acc i) 63 (le_refl _) h i

end Fold

section Final

/-- Tile `s`, position `r` ↦ edge `1024·s + r`: the 64 tiles of 1024 edges are the 65536 edges. -/
def tileEquiv : Fin 64 × Fin 1024 ≃ Fin 65536 where
  toFun p := ⟨1024 * p.1.val + p.2.val, by have := p.1.isLt; have := p.2.isLt; omega⟩
  invFun e := (⟨e.val / 1024, by have := e.isLt; omega⟩, ⟨e.val % 1024, by omega⟩)
  left_inv p := by
    obtain ⟨s, r⟩ := p
    have := r.isLt
    apply Prod.ext
    · apply Fin.ext; show (1024 * s.val + r.val) / 1024 = s.val; omega
    · apply Fin.ext; show (1024 * s.val + r.val) % 1024 = r.val; omega
  right_inv e := by apply Fin.ext; show 1024 * (e.val / 1024) + e.val % 1024 = e.val; omega

/-- A sum over the edges, tile by tile. -/
theorem sum_tiles (G : Fin 65536 → EReal) :
    ∑ s : Fin 64, ∑ r : Fin 1024, G (tileEquiv (s, r)) = ∑ e : Fin 65536, G e := by
  rw [← Equiv.sum_comp tileEquiv G, Fintype.sum_prod_type]

/-- The 64 tiles' contributions are the sum over all edges. -/
theorem tiles_eq (c : Dev nD) (n : Fin 2048) (j : Fin 64) :
    ∑ s ∈ Finset.range 64, tileSum V c (0 + s) (ix2 n j) = ∑ e : Fin 65536, edgeTerm V c n j e := by
  rw [Finset.sum_range, ← sum_tiles]
  refine Finset.sum_congr rfl fun s _ => ?_
  have hs : 0 + s.val < cfg2.N := by have := s.isLt; rw [show cfg2.N = 64 from N_2]; omega
  unfold tileSum
  rw [dif_pos hs]
  refine Finset.sum_congr rfl fun r _ => ?_
  refine congrArg (edgeTerm V c n j) (Fin.ext ?_)
  show 1024 * (0 + s.val) + r.val = 1024 * s.val + r.val
  omega

/-- The layer's output, as contents of the result array. -/
abbrev result (c : Dev nD) : Mat 2048 64 :=
  fun i => aggregated (V c main_arg2) (V c main_v6_1) (V c main_v6_0) (V c main_v11) (V c main_v10) (i 0) (i 1)

/-- After the last point the block holds the layer's output: the zero it started from is the additive unit. -/
theorem last_eq (c : Dev nD) (h : 63 < cfg2.N) : outsAt2 V c 63 h = result V c := by
  funext i
  obtain ⟨n, j, rfl⟩ : ∃ (n : Fin 2048) (j : Fin 64), i = ix2 n j := ⟨i 0, i 1, eq_ix2 i⟩
  rw [outsAt_last, tiles_eq]
  show Ideal.ofBits .f32 0x00000000#32 + _ = _
  rw [Ideal.ofBits_zero_f32, zero_add]
  rfl

end Final

section Array

/-- The last grid point, the one that writes the block back. -/
def tLast : Fin cfg2.N := ⟨63, lt_of_lt_of_eq (by decide : 63 < 64) (show (64 : ℕ) = cfg2.N from N_2.symm)⟩

/-- The one write-back, at the last point, writes the layer's output: block (0, 0) of the [2048, 64] array read
    through zero offsets is the array. -/
theorem flushed_eq (c : Dev nD) (t : Fin cfg2.N) (hf : (cfg2.win 5).flush t = true) :
    (dat2 (F := Ideal) V c).flushed 5 t = ((cfg2.win 5).blk t).view.read (Elt Ideal) (result V c) := by
  have hN : cfg2.N = 64 := N_2
  have h63 : t.val = 63 := by have := (flush2_5 t).mp hf; have := t.isLt; omega
  obtain rfl : t = tLast := Fin.ext h63
  show (cfg2.win 5).cut (grid2.coords tLast) ((dat2 (F := Ideal) V c).after 5 tLast) = _
  rw [after2_5]
  rw [show outsAt2 V c tLast.val tLast.isLt = result V c from last_eq V c tLast.isLt]
  have hz' : (fun a => win2_5.index tLast a * main_v12.ty.shape.size a) = fun _ => 0 :=
    funext fun a => by
      match a with
      | ⟨0, _⟩ => show win2_5.index tLast 0 * 2048 = 0; rw [(idx_facts tLast).2.2.2.2.2.1]
      | ⟨1, _⟩ => show win2_5.index tLast 1 * 64 = 0; rw [(idx_facts tLast).2.2.2.2.2.2]
  exact (Memref.read_access_unit_zero (Elt Ideal) main_v12 hz' (fun a => by rw [congrFun hz' a]; simp) (result V c)).symm

/-- The result array ends holding the layer's output: the one block written back, after the last tile, is the array. -/
theorem outputs_eq (c : Dev nD) :
    (dat2 (F := Ideal) V c).arrAt 5 cfg2.N
      = fun i => aggregated (V c main_arg2) (V c main_v6_1) (V c main_v6_0) (V c main_v11) (V c main_v10) (i 0) (i 1) :=
  (dat2 (F := Ideal) V c).arrAt_eq_of_cover 5 (result V c) (flushed_eq V c) fun i =>
    ⟨tLast, (flush2_5 tLast).mpr rfl, by
      show i ∈ ((View.whole main_v12).slice (win2_5.rect tLast)).set
      rw [View.set_slice_whole, Rect.mem_set_unit]
      intro a
      have h0 : (i 0 : Nat) < 2048 := (i 0).isLt
      have h1 : (i 1 : Nat) < 64 := (i 1).isLt
      match a with
      | ⟨0, _⟩ =>
        show win2_5.index tLast 0 * win2_5.size 0 ≤ (i 0 : Nat)
          ∧ (i 0 : Nat) < win2_5.index tLast 0 * win2_5.size 0 + win2_5.xsize (grid2.coords tLast) 0
        rw [(idx_facts tLast).2.2.2.2.2.1, show win2_5.xsize (grid2.coords tLast) 0 = 2048 from by decide +kernel]; omega
      | ⟨1, _⟩ =>
        show win2_5.index tLast 1 * win2_5.size 1 ≤ (i 1 : Nat)
          ∧ (i 1 : Nat) < win2_5.index tLast 1 * win2_5.size 1 + win2_5.xsize (grid2.coords tLast) 1
        rw [(idx_facts tLast).2.2.2.2.2.2, show win2_5.xsize (grid2.coords tLast) 1 = 64 from by decide +kernel]; omega⟩

end Array

end Cert.KernelIdeal.RegionC

end
-- ==== Proof.KernelValue.lean ====
/-
  The kernel program's result array, read back to the arguments.

  The program runs three kernel regions among host operations. The contents of every array at each boundary are a
  fold from the launch memory: a host stretch leaves what its operations compute, a region leaves each of its
  arrays at what its write-backs leave. Walking that fold backwards from the result array: region 2's output holds
  the aggregation of its five input arrays; of those, the denominators are region 1's output, the mean is the
  host's mean of the logits, the messages and the logits are region 0's two outputs, and the incidence matrix is
  an argument no region writes. Region 0's inputs are the arguments, the two row halves the host slices out of
  each weight matrix, and the two biases reshaped to one row. Substituting stage by stage gives the layer of the
  specification as one function of the seven arguments.
-/
import proofs.«111324_j36816459661559_1_alg».proof.Proof.Gen.KernelIdeal.Frame
import proofs.«111324_j36816459661559_1_alg».proof.Proof.Spec
import proofs.«111324_j36816459661559_1_alg».proof.Proof.RegionA
import proofs.«111324_j36816459661559_1_alg».proof.Proof.RegionB
import proofs.«111324_j36816459661559_1_alg».proof.Proof.RegionC
import Idealize.ShloMosaic.Lib.Pipeline.Value
import Idealize.ShloMosaic.Lib.ValueLayout
import Idealize.ShloMosaic.Lib.StableHlo.Run

noncomputable section

namespace Cert.KernelIdeal.LayerValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.EdgeAttention

variable (m : (ℓ : Loc nD τ sig) → Buf (Elt Ideal) ℓ) (ρ : Dev nD → PrngReg)

/-! ## Region 0's entry: the arguments as launched, the weight halves and the bias rows the host cut out -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl
theorem V1_arg2 (c : Dev nD) : V1 m ρ c main_arg2 = m ((c : Thread nD τ).loc main_arg2) := by
  show StableHlo.after hostOps0 (W0 m ρ c) (Proc.devRef .tc main_arg2) = _
  after_results <;> rfl
theorem V1_v0 (c : Dev nD) : V1 m ρ c main_v0 = extractStridedSlice S64x64 ![0, 0] (m ((c : Thread nD τ).loc main_arg3)) slices_S128x64_S64x64_0_0 := by
  show StableHlo.after hostOps0 (W0 m ρ c) (Proc.devRef .tc main_v0) = _
  after_results
theorem V1_v1 (c : Dev nD) : V1 m ρ c main_v1 = extractStridedSlice S64x64 ![64, 0] (m ((c : Thread nD τ).loc main_arg3)) slices_S128x64_S64x64_64_0 := by
  show StableHlo.after hostOps0 (W0 m ρ c) (Proc.devRef .tc main_v1) = _
  after_results
theorem V1_v2 (c : Dev nD) : V1 m ρ c main_v2 = extractStridedSlice S64x1 ![0, 0] (m ((c : Thread nD τ).loc main_arg5)) slices_S128x1_S64x1_0_0 := by
  show StableHlo.after hostOps0 (W0 m ρ c) (Proc.devRef .tc main_v2) = _
  after_results
theorem V1_v3 (c : Dev nD) : V1 m ρ c main_v3 = extractStridedSlice S64x1 ![64, 0] (m ((c : Thread nD τ).loc main_arg5)) slices_S128x1_S64x1_64_0 := by
  show StableHlo.after hostOps0 (W0 m ρ c) (Proc.devRef .tc main_v3) = _
  after_results
theorem V1_v4 (c : Dev nD) : V1 m ρ c main_v4 = shapeCast S1x64 (m ((c : Thread nD τ).loc main_arg4)) shapeCasts_S64_S1x64 := by
  show StableHlo.after hostOps0 (W0 m ρ c) (Proc.devRef .tc main_v4) = _
  after_results <;> rfl
theorem V1_v5 (c : Dev nD) : V1 m ρ c main_v5 = shapeCast S1x1 (m ((c : Thread nD τ).loc main_arg6)) shapeCasts_S1_S1x1 := by
  show StableHlo.after hostOps0 (W0 m ρ c) (Proc.devRef .tc main_v5) = _
  after_results <;> rfl

/-! ## Region 0's exit -/

theorem V2_arg2 (c : Dev nD) : V2 m ρ c main_arg2 = V1 m ρ c main_arg2 :=
  (W2_arr m ρ c 1).trans (((dat0 (V1 m ρ) c).arrAt_in 1 rfl _).trans (A_eq0 (V1 m ρ) c 1))
theorem V2_v6_0 (c : Dev nD) : V2 m ρ c main_v6_0 = (dat0 (V1 m ρ) c).arrAt 9 cfg0.N := W2_arr m ρ c 9
theorem V2_v6_1 (c : Dev nD) : V2 m ρ c main_v6_1 = (dat0 (V1 m ρ) c).arrAt 10 cfg0.N := W2_arr m ρ c 10

/-! ## Region 1's entry: the host takes the mean of the logits -/

theorem V3_arg2 (c : Dev nD) : V3 m ρ c main_arg2 = V2 m ρ c main_arg2 := by
  show StableHlo.after hostOps1 (W2 m ρ c) (Proc.devRef .tc main_arg2) = _
  after_results <;> rfl
theorem V3_v6_0 (c : Dev nD) : V3 m ρ c main_v6_0 = V2 m ρ c main_v6_0 := by
  show StableHlo.after hostOps1 (W2 m ρ c) (Proc.devRef .tc main_v6_0) = _
  after_results <;> rfl
theorem V3_v6_1 (c : Dev nD) : V3 m ρ c main_v6_1 = V2 m ρ c main_v6_1 := by
  show StableHlo.after hostOps1 (W2 m ρ c) (Proc.devRef .tc main_v6_1) = _
  after_results <;> rfl

/-- The host's mean of a column of 65536 values: their sum from the zero word, a one-by-one matrix, divided by the
    word of 65536. -/
def hostMean (A : FVec Ideal S65536x1 .f32) : FVec Ideal S1x1 .f32 :=
  Host.divf (F := Ideal) (broadcastInDim S1x1 ![1] bcast_S1_S1x1_1 (Host.reduceAdd (F := Ideal) A (constant (F := Ideal) S_ .f32 0x00000000#32) reducesTo_S65536x1_S1_d0 h_S_))
    (broadcastInDim S1x1 ![] bcast_S_S1x1 (constant (F := Ideal) S_ .f32 0x47800000#32))

theorem V3_v10 (c : Dev nD) : V3 m ρ c main_v10 = hostMean (V2 m ρ c main_v6_1) := by
  show StableHlo.after hostOps1 (W2 m ρ c) (Proc.devRef .tc main_v10) = _
  after_results <;> rfl

/-- At the ideal values the host's sum along the one long axis is the sum over its 65536 positions from the
    initial value, so the host's mean is the specification's. -/
theorem hostMean_eq (A : FVec Ideal S65536x1 .f32) : hostMean A = fun _ => meanLogit A := by
  funext i
  show FloatOps.hostDivf (broadcastInDim S1x1 ![1] bcast_S1_S1x1_1 (Host.reduceAdd (F := Ideal) A (constant (F := Ideal) S_ .f32 0x00000000#32) reducesTo_S65536x1_S1_d0 h_S_) i)
    (broadcastInDim S1x1 ![] bcast_S_S1x1 (constant (F := Ideal) S_ .f32 0x47800000#32) i) = _
  rw [broadcastInDim_apply _ bcast_S1_S1x1_1 _ i (fun a => match a with | ⟨0, _⟩ => ⟨0, Nat.one_pos⟩) (fun a => match a with
      | ⟨0, _⟩ => by show 0 = if (1 : Nat) = 1 then 0 else (i 1).val; rw [if_pos rfl]),
    broadcastInDim_apply _ bcast_S_S1x1 _ i (fun a => a.elim0) (fun a => a.elim0)]
  simp only [Host.reduceAdd, Ideal.hostReduceAdd_def]
  rw [Ideal.hostReduceAdd_single reducesTo_S65536x1_S1_d0 (by decide)]
  unfold meanLogit
  refine congrArg (fun s => Ideal.div (Ideal.ofBits .f32 0x00000000#32 + s) (Ideal.ofBits .f32 0x47800000#32)) (Finset.sum_congr rfl fun k _ => ?_)
  exact congrArg A (funext fun a => Fin.ext (by match a with | ⟨0, _⟩ => rfl | ⟨1, _⟩ => rfl))

/-! ## Region 1's exit, region 2's entry -/

theorem V4_arg2 (c : Dev nD) : V4 m ρ c main_arg2 = V3 m ρ c main_arg2 :=
  (W4_arr m ρ c 0).trans (((dat1 (V3 m ρ) c).arrAt_in 0 rfl _).trans (A_eq1 (V3 m ρ) c 0))
theorem V4_v6_1 (c : Dev nD) : V4 m ρ c main_v6_1 = V3 m ρ c main_v6_1 :=
  (W4_arr m ρ c 1).trans (((dat1 (V3 m ρ) c).arrAt_in 1 rfl _).trans (A_eq1 (V3 m ρ) c 1))
theorem V4_v10 (c : Dev nD) : V4 m ρ c main_v10 = V3 m ρ c main_v10 :=
  (W4_arr m ρ c 2).trans (((dat1 (V3 m ρ) c).arrAt_in 2 rfl _).trans (A_eq1 (V3 m ρ) c 2))
theorem V4_v11 (c : Dev nD) : V4 m ρ c main_v11 = (dat1 (V3 m ρ) c).arrAt 3 cfg1.N := W4_arr m ρ c 3
theorem V4_v6_0 (c : Dev nD) : V4 m ρ c main_v6_0 = V3 m ρ c main_v6_0 := W4_of_ne m ρ c main_v6_0 (by decide)

/-! ## The host's cuts are the specification's -/

/-- The weight rows the host slices out are the specification's row ranges. -/
theorem slice_rows {b : ℕ} (W : Mat 128 b) (off : ℕ) (h : off + 64 ≤ 128) (hs : (⟨2, ![128, b]⟩ : Shape).Slices ![off, 0] ⟨2, ![64, b]⟩) :
    extractStridedSlice ⟨2, ![64, b]⟩ ![off, 0] W hs = rows64 W off h := by
  funext i
  unfold extractStridedSlice rows64
  refine congrArg W (funext fun a => Fin.ext ?_)
  match a with
  | ⟨0, _⟩ => rfl
  | ⟨1, _⟩ => show 0 + (i 1).val = (i 1).val; omega

/-- A vector reshaped to one row is the specification's one-row matrix. -/
theorem reshape_row {b : ℕ} (v : Vect b) (hs : (⟨1, ![b]⟩ : Shape).ShapeCasts ⟨2, ![1, b]⟩) :
    shapeCast ⟨2, ![1, b]⟩ v hs = asRow v := by
  funext i
  rw [eq_ix2 i]
  exact shapeCast_a_1a_apply v hs (i 0) (i 1)

/-! ## The stages, in the arguments -/

/-- The seven argument arrays as launched, at the specification's types. -/
abbrev argX (c : Dev nD) : Mat 2048 64 := m ((c : Thread nD τ).loc main_arg0)
abbrev argSrc (c : Dev nD) : Mat 2048 65536 := m ((c : Thread nD τ).loc main_arg1)
abbrev argTgt (c : Dev nD) : Mat 2048 65536 := m ((c : Thread nD τ).loc main_arg2)
abbrev argW (c : Dev nD) : Mat 128 64 := m ((c : Thread nD τ).loc main_arg3)
abbrev argBias (c : Dev nD) : Vect 64 := m ((c : Thread nD τ).loc main_arg4)
abbrev argw (c : Dev nD) : Mat 128 1 := m ((c : Thread nD τ).loc main_arg5)
abbrev argβ (c : Dev nD) : Vect 1 := m ((c : Thread nD τ).loc main_arg6)

/-- Region 0 leaves every edge's message in its first result array. -/
theorem messages_stage (c : Dev nD) :
    V2 m ρ c main_v6_0 = messages (argX m c) (argSrc m c) (argTgt m c) (argW m c) (argBias m c) := by
  rw [V2_v6_0, RegionA.messages_eq, V1_arg1, V1_arg2, V1_arg0, V1_v0, V1_v1, V1_v4,
    slice_rows (argW m c) 0 (by omega) slices_S128x64_S64x64_0_0, slice_rows (argW m c) 64 (by omega) slices_S128x64_S64x64_64_0,
    reshape_row (argBias m c) shapeCasts_S64_S1x64]
  rfl

/-- Region 0 leaves every edge's logit in its second result array. -/
theorem logits_stage (c : Dev nD) :
    V2 m ρ c main_v6_1 = logits (argX m c) (argSrc m c) (argTgt m c) (argw m c) (argβ m c) := by
  rw [V2_v6_1, RegionA.logits_eq, V1_arg1, V1_arg2, V1_arg0, V1_v2, V1_v3, V1_v5,
    slice_rows (argw m c) 0 (by omega) slices_S128x1_S64x1_0_0, slice_rows (argw m c) 64 (by omega) slices_S128x1_S64x1_64_0,
    reshape_row (argβ m c) shapeCasts_S1_S1x1]
  rfl

/-- The host's mean of region 0's logits is the specification's mean. -/
theorem mean_stage (c : Dev nD) :
    V3 m ρ c main_v10 = mean (argX m c) (argSrc m c) (argTgt m c) (argw m c) (argβ m c) := by
  rw [V3_v10, hostMean_eq, logits_stage]
  rfl

/-- Region 1 leaves every node's denominator in its result array. -/
theorem denominators_stage (c : Dev nD) :
    V4 m ρ c main_v11 = denominators (argX m c) (argSrc m c) (argTgt m c) (argw m c) (argβ m c) := by
  rw [V4_v11, RegionB.denominators_eq, V3_arg2, V2_arg2, V1_arg2, V3_v6_1, logits_stage, mean_stage]
  rfl

/-- Region 2 leaves the layer's output in the program's result array. -/
theorem result_eq (c : Dev nD) :
    W5 m ρ c (Proc.devRef .tc main_v12)
      = layer (argX m c) (argSrc m c) (argTgt m c) (argW m c) (argBias m c) (argw m c) (argβ m c) := by
  rw [show W5 m ρ c (Proc.devRef .tc main_v12) = (dat2 (V4 m ρ) c).arrAt 5 cfg2.N from W5_arr m ρ c 5, RegionC.outputs_eq,
    V4_arg2, V3_arg2, V2_arg2, V1_arg2, V4_v6_1, V3_v6_1, logits_stage, V4_v6_0, V3_v6_0, messages_stage, denominators_stage,
    V4_v10, mean_stage]
  rfl

end Cert.KernelIdeal.LayerValue

end
-- ==== Proof.RefSide.lean ====
import proofs.«111324_j36816459661559_1_alg».proof.Proof.Gen.ReferenceIdeal.Read
import proofs.«111324_j36816459661559_1_alg».proof.Proof.Spec
import Idealize.ShloMosaic.Lib.Pipeline.Value
import Idealize.ShloMosaic.Lib.ValueIdx
import Idealize.ShloMosaic.PureOps.Ideal.Laws

noncomputable section

namespace Cert.ReferenceIdeal.LayerValue

open Idealize.ShloMosaic Idealize.ShloMosaic.TcCoe Idealize.SL.Sem Idealize.ShloMosaic.ValueIdx
open Cert.ReferenceIdeal Cert.ReferenceIdeal.Gen Cert.ReferenceIdeal.Read Cert.EdgeAttention

/-!
  The reference program read index by index, one stage of the layer at a time.

  Each stage is an equality between what the program has computed so far and the corresponding function of the
  mathematics: the two gathered feature matrices (a product with the transposed incidence matrix is the sum over the
  nodes of incidence entry times feature), their side-by-side join, the rectified linear layer and the logit layer
  (a 128-term contraction over the joined row, split into its two halves of 64), the mean logit, the weights, the
  nodes' denominators, the edges' attention, and the final weighted sum over the edges. Only re-indexing of finite
  sums is used; no sum is reordered and nothing is assumed finite.
-/

/-- A sum of 128 terms is the sum of its first 64 and of its last 64 terms. -/
theorem sum_split128 {M : Type*} [AddCommMonoid M] (f : Fin 128 → M) :
    ∑ c : Fin 128, f c = (∑ k : Fin 64, f ⟨k.val, by omega⟩) + ∑ k : Fin 64, f ⟨64 + k.val, by omega⟩ :=
  Fin.sum_univ_add (a := 64) (b := 64) f

theorem gathered_src (x0 : (⟨S2048x64, .f32⟩ : BufTy).Contents (Elt Ideal)) (x1 : (⟨S2048x65536, .f32⟩ : BufTy).Contents (Elt Ideal))
    (e : Fin 65536) (k : Fin 64) :
    val_main_v1 (F := Ideal) x0 x1 (ix2 e k) = gathered x1 x0 e k := by
  rw [val_main_v1_apply]
  unfold gathered
  refine Finset.sum_congr rfl fun n _ => ?_
  rw [val_main_v0_apply]
  have e1 : idx_main_v0 (lidx_main_v1 (ix2 e k) n) = ix2 n e :=
    funext fun a => Fin.ext (by match a with | ⟨0, _⟩ => rfl | ⟨1, _⟩ => rfl)
  have e2 : ridx_main_v1 (ix2 e k) n = ix2 n k :=
    funext fun a => Fin.ext (by match a with | ⟨0, _⟩ => rfl | ⟨1, _⟩ => rfl)
  rw [e1, e2]

theorem gathered_tgt (x0 : (⟨S2048x64, .f32⟩ : BufTy).Contents (Elt Ideal)) (x2 : (⟨S2048x65536, .f32⟩ : BufTy).Contents (Elt Ideal))
    (e : Fin 65536) (k : Fin 64) :
    val_main_v3 (F := Ideal) x0 x2 (ix2 e k) = gathered x2 x0 e k := by
  rw [val_main_v3_apply]
  unfold gathered
  refine Finset.sum_congr rfl fun n _ => ?_
  rw [val_main_v2_apply]
  have e1 : idx_main_v2 (lidx_main_v3 (ix2 e k) n) = ix2 n e :=
    funext fun a => Fin.ext (by match a with | ⟨0, _⟩ => rfl | ⟨1, _⟩ => rfl)
  have e2 : ridx_main_v3 (ix2 e k) n = ix2 n k :=
    funext fun a => Fin.ext (by match a with | ⟨0, _⟩ => rfl | ⟨1, _⟩ => rfl)
  rw [e1, e2]

theorem pair_left (x0 : (⟨S2048x64, .f32⟩ : BufTy).Contents (Elt Ideal)) (x1 x2 : (⟨S2048x65536, .f32⟩ : BufTy).Contents (Elt Ideal)) (e : Fin 65536) (k : Fin 64) :
    val_main_v4 (F := Ideal) x0 x1 x2 (ix2 e (⟨k.val, by omega⟩ : Fin 128)) = gathered x1 x0 e k := by
  unfold val_main_v4
  refine (concatenate_pair_apply_left (t := S65536x128) (s₁ := S65536x64) (s₂ := S65536x64) 1 (val_main_v1 (F := Ideal) x0 x1) (val_main_v3 (F := Ideal) x0 x2) concatenates_S65536x64_S65536x64_S65536x128_d1 (ix2 e (⟨k.val, by omega⟩ : Fin 128)) rfl (ix2 e k) (fun b => match b with
    | ⟨0, _⟩ => rfl
    | ⟨1, _⟩ => rfl)).trans ?_
  exact gathered_src x0 x1 e k

theorem pair_right (x0 : (⟨S2048x64, .f32⟩ : BufTy).Contents (Elt Ideal)) (x1 x2 : (⟨S2048x65536, .f32⟩ : BufTy).Contents (Elt Ideal)) (e : Fin 65536) (k : Fin 64) :
    val_main_v4 (F := Ideal) x0 x1 x2 (ix2 e (⟨64 + k.val, by omega⟩ : Fin 128)) = gathered x2 x0 e k := by
  unfold val_main_v4
  refine (concatenate_pair_apply_right (t := S65536x128) (s₁ := S65536x64) (s₂ := S65536x64) 1 (val_main_v1 (F := Ideal) x0 x1) (val_main_v3 (F := Ideal) x0 x2) concatenates_S65536x64_S65536x64_S65536x128_d1 (ix2 e (⟨64 + k.val, by omega⟩ : Fin 128)) rfl rfl (ix2 e k) (fun b => match b with
    | ⟨0, _⟩ => fun _ => rfl
    | ⟨1, _⟩ => fun h => absurd rfl h) (by show k.val + 64 = 64 + k.val; omega)).trans ?_
  exact gathered_tgt x0 x2 e k

/-- The message stage: the 128-term contraction over the joined feature row splits into the 64 terms that meet the
    source endpoint's features and the 64 that meet the target endpoint's. -/
theorem message_at (x0 : (⟨S2048x64, .f32⟩ : BufTy).Contents (Elt Ideal)) (x1 x2 : (⟨S2048x65536, .f32⟩ : BufTy).Contents (Elt Ideal)) (x3 : (⟨S128x64, .f32⟩ : BufTy).Contents (Elt Ideal)) (x4 : (⟨S64, .f32⟩ : BufTy).Contents (Elt Ideal)) (e : Fin 65536) (j : Fin 64) :
    val_main_v9 (F := Ideal) x0 x1 x2 x3 x4 (ix2 e j)
      = message x1 x2 x0 (rows64 x3 0 (by omega)) (rows64 x3 64 (by omega)) (asRow x4) e j := by
  rw [val_main_v9_apply, val_main_v8_apply, val_main_v5_apply, val_main_call0_v0_apply, val_main_call0_cst_apply,
    val_main_v7_apply, val_main_v6_apply, Ideal.maximumf_def, Ideal.addf_def, sum_split128]
  unfold message
  refine congrArg₂ max (congrArg₂ (· + ·) (congrArg₂ (· + ·) (Finset.sum_congr rfl fun k _ => ?_)
    (Finset.sum_congr rfl fun k _ => ?_)) ?_) rfl
  · have el : lidx_main_v5 (ix2 e j) (⟨k.val, by omega⟩ : Fin 128) = ix2 e (⟨k.val, by omega⟩ : Fin 128) :=
      funext fun a => Fin.ext (by match a with | ⟨0, _⟩ => rfl | ⟨1, _⟩ => rfl)
    rw [el, pair_left]
    refine congrArg (gathered x1 x0 e k * ·) ?_
    unfold rows64
    exact congrArg x3 (funext fun a => Fin.ext (by
      match a with
      | ⟨0, _⟩ => exact (Nat.zero_add _).symm
      | ⟨1, _⟩ => rfl))
  · have el : lidx_main_v5 (ix2 e j) (⟨64 + k.val, by omega⟩ : Fin 128) = ix2 e (⟨64 + k.val, by omega⟩ : Fin 128) :=
      funext fun a => Fin.ext (by match a with | ⟨0, _⟩ => rfl | ⟨1, _⟩ => rfl)
    rw [el, pair_right]
    refine congrArg (gathered x2 x0 e k * ·) ?_
    unfold rows64
    exact congrArg x3 (funext fun a => Fin.ext (by
      match a with
      | ⟨0, _⟩ => rfl
      | ⟨1, _⟩ => rfl))
  · unfold asRow
    exact congrArg x4 (funext fun a => Fin.ext (by match a with | ⟨0, _⟩ => rfl))

/-- The logit stage: the same split of the 128-term contraction, against the one-column weight matrix. -/
theorem logit_at (x0 : (⟨S2048x64, .f32⟩ : BufTy).Contents (Elt Ideal)) (x1 x2 : (⟨S2048x65536, .f32⟩ : BufTy).Contents (Elt Ideal)) (x5 : (⟨S128x1, .f32⟩ : BufTy).Contents (Elt Ideal)) (x6 : (⟨S1, .f32⟩ : BufTy).Contents (Elt Ideal)) (e : Fin 65536) :
    val_main_v13 (F := Ideal) x0 x1 x2 x5 x6 (ix2 e 0)
      = logit x1 x2 x0 (rows64 x5 0 (by omega)) (rows64 x5 64 (by omega)) (asRow x6) e := by
  rw [val_main_v13_apply, val_main_v10_apply, val_main_v12_apply, val_main_v11_apply, Ideal.addf_def, sum_split128]
  unfold logit
  refine congrArg₂ (· + ·) (congrArg₂ (· + ·) (Finset.sum_congr rfl fun k _ => ?_)
    (Finset.sum_congr rfl fun k _ => ?_)) ?_
  · have el : lidx_main_v10 (ix2 e 0) (⟨k.val, by omega⟩ : Fin 128) = ix2 e (⟨k.val, by omega⟩ : Fin 128) :=
      funext fun a => Fin.ext (by match a with | ⟨0, _⟩ => rfl | ⟨1, _⟩ => rfl)
    rw [el, pair_left]
    refine congrArg (gathered x1 x0 e k * ·) ?_
    unfold rows64
    exact congrArg x5 (funext fun a => Fin.ext (by
      match a with
      | ⟨0, _⟩ => exact (Nat.zero_add _).symm
      | ⟨1, _⟩ => rfl))
  · have el : lidx_main_v10 (ix2 e 0) (⟨64 + k.val, by omega⟩ : Fin 128) = ix2 e (⟨64 + k.val, by omega⟩ : Fin 128) :=
      funext fun a => Fin.ext (by match a with | ⟨0, _⟩ => rfl | ⟨1, _⟩ => rfl)
    rw [el, pair_right]
    refine congrArg (gathered x2 x0 e k * ·) ?_
    unfold rows64
    exact congrArg x5 (funext fun a => Fin.ext (by
      match a with
      | ⟨0, _⟩ => rfl
      | ⟨1, _⟩ => rfl))
  · unfold asRow
    exact congrArg x6 (funext fun a => Fin.ext (by match a with | ⟨0, _⟩ => rfl))

/-- Every edge's message, as one function. -/
theorem messages_eq (x0 : (⟨S2048x64, .f32⟩ : BufTy).Contents (Elt Ideal)) (x1 x2 : (⟨S2048x65536, .f32⟩ : BufTy).Contents (Elt Ideal)) (x3 : (⟨S128x64, .f32⟩ : BufTy).Contents (Elt Ideal)) (x4 : (⟨S64, .f32⟩ : BufTy).Contents (Elt Ideal)) :
    val_main_v9 (F := Ideal) x0 x1 x2 x3 x4 = messages x0 x1 x2 x3 x4 := by
  funext i
  obtain ⟨e, j, rfl⟩ : ∃ (e : Fin 65536) (j : Fin 64), i = ix2 e j := ⟨i 0, i 1, eq_ix2 i⟩
  exact message_at x0 x1 x2 x3 x4 e j

/-- Every edge's logit, as one function (the logits form a one-column matrix: the column index is 0). -/
theorem logits_eq (x0 : (⟨S2048x64, .f32⟩ : BufTy).Contents (Elt Ideal)) (x1 x2 : (⟨S2048x65536, .f32⟩ : BufTy).Contents (Elt Ideal)) (x5 : (⟨S128x1, .f32⟩ : BufTy).Contents (Elt Ideal)) (x6 : (⟨S1, .f32⟩ : BufTy).Contents (Elt Ideal)) :
    val_main_v13 (F := Ideal) x0 x1 x2 x5 x6 = logits x0 x1 x2 x5 x6 := by
  funext i
  obtain ⟨e, z, rfl⟩ : ∃ (e : Fin 65536) (z : Fin 1), i = ix2 e z := ⟨i 0, i 1, eq_ix2 i⟩
  obtain rfl : z = 0 := Subsingleton.elim _ _
  exact logit_at x0 x1 x2 x5 x6 e

/-- The mean logit: the sum of the 65536 logits from the zero word, over the count. -/
theorem mean_eq (x0 : (⟨S2048x64, .f32⟩ : BufTy).Contents (Elt Ideal)) (x1 x2 : (⟨S2048x65536, .f32⟩ : BufTy).Contents (Elt Ideal)) (x5 : (⟨S128x1, .f32⟩ : BufTy).Contents (Elt Ideal)) (x6 : (⟨S1, .f32⟩ : BufTy).Contents (Elt Ideal)) :
    val_main_v17 (F := Ideal) x0 x1 x2 x5 x6 = mean x0 x1 x2 x5 x6 := by
  funext i
  rw [val_main_v17_apply, val_main_v15_apply, val_main_v14_apply, val_main_v16_apply, val_main_cst_0_apply,
    val_main_cst_apply, Ideal.hostDivf_def, logits_eq]
  unfold mean meanLogit
  refine congrArg₂ Ideal.div (congrArg₂ (· + ·) rfl (Finset.sum_congr rfl fun k _ => ?_)) rfl
  exact congrArg (logits x0 x1 x2 x5 x6) (funext fun a => Fin.ext (by
    match a with
    | ⟨0, _⟩ => rfl
    | ⟨1, _⟩ => rfl))

/-- The unnormalised weight of an edge: the exponential of its logit less the mean. -/
theorem weight_at (x0 : (⟨S2048x64, .f32⟩ : BufTy).Contents (Elt Ideal)) (x1 x2 : (⟨S2048x65536, .f32⟩ : BufTy).Contents (Elt Ideal)) (x5 : (⟨S128x1, .f32⟩ : BufTy).Contents (Elt Ideal)) (x6 : (⟨S1, .f32⟩ : BufTy).Contents (Elt Ideal)) (e : Fin 65536) (z : Fin 1) :
    val_main_v20 (F := Ideal) x0 x1 x2 x5 x6 (ix2 e z)
      = weight (logits x0 x1 x2 x5 x6) (mean x0 x1 x2 x5 x6) e := by
  obtain rfl : z = 0 := Subsingleton.elim _ _
  rw [val_main_v20_apply, val_main_v19_apply, val_main_v18_apply, Ideal.hostUnary_exp_def, Ideal.subf_def,
    logits_eq, mean_eq]
  rfl

/-- Every node's denominator: the weights of the edges pointing at it, summed. -/
theorem denominators_eq (x0 : (⟨S2048x64, .f32⟩ : BufTy).Contents (Elt Ideal)) (x1 x2 : (⟨S2048x65536, .f32⟩ : BufTy).Contents (Elt Ideal)) (x5 : (⟨S128x1, .f32⟩ : BufTy).Contents (Elt Ideal)) (x6 : (⟨S1, .f32⟩ : BufTy).Contents (Elt Ideal)) :
    val_main_v21 (F := Ideal) x0 x1 x2 x5 x6 = denominators x0 x1 x2 x5 x6 := by
  funext i
  obtain ⟨n, z, rfl⟩ : ∃ (n : Fin 2048) (z : Fin 1), i = ix2 n z := ⟨i 0, i 1, eq_ix2 i⟩
  rw [val_main_v21_apply]
  unfold denominators denominator
  refine Finset.sum_congr rfl fun k _ => ?_
  have el : lidx_main_v21 (ix2 n z) k = ix2 n k :=
    funext fun a => Fin.ext (by match a with | ⟨0, _⟩ => rfl | ⟨1, _⟩ => rfl)
  have er : ridx_main_v21 (ix2 n z) k = ix2 k z :=
    funext fun a => Fin.ext (by match a with | ⟨0, _⟩ => rfl | ⟨1, _⟩ => rfl)
  rw [el, er, weight_at]

/-- The normalised attention of an edge: its weight over its target's denominator, read back through the incidence
    column, plus the guard. -/
theorem attention_at (x0 : (⟨S2048x64, .f32⟩ : BufTy).Contents (Elt Ideal)) (x1 x2 : (⟨S2048x65536, .f32⟩ : BufTy).Contents (Elt Ideal)) (x5 : (⟨S128x1, .f32⟩ : BufTy).Contents (Elt Ideal)) (x6 : (⟨S1, .f32⟩ : BufTy).Contents (Elt Ideal)) (e : Fin 65536) (z : Fin 1) :
    val_main_v26 (F := Ideal) x0 x1 x2 x5 x6 (ix2 e z)
      = attention x2 (logits x0 x1 x2 x5 x6) (denominators x0 x1 x2 x5 x6) (mean x0 x1 x2 x5 x6) e := by
  obtain rfl : z = 0 := Subsingleton.elim _ _
  rw [val_main_v26_apply, val_main_v25_apply, val_main_v23_apply, val_main_v24_apply, val_main_cst_1_apply,
    Ideal.hostDivf_def, Ideal.addf_def, weight_at, denominators_eq]
  unfold attention
  refine congrArg₂ Ideal.div rfl (congrArg₂ (· + ·) (Finset.sum_congr rfl fun n _ => ?_) rfl)
  rw [val_main_v22_apply]
  have el : idx_main_v22 (lidx_main_v23 (ix2 e 0) n) = ix2 n e :=
    funext fun a => Fin.ext (by match a with | ⟨0, _⟩ => rfl | ⟨1, _⟩ => rfl)
  have er : ridx_main_v23 (ix2 e 0) n = ix2 n 0 :=
    funext fun a => Fin.ext (by match a with | ⟨0, _⟩ => rfl | ⟨1, _⟩ => rfl)
  rw [el, er]

/-- The reference program computes the layer: each output entry sums, over the edges, the incidence entry times the
    edge's message times its attention. -/
theorem reference_eq_layer (x0 : (⟨S2048x64, .f32⟩ : BufTy).Contents (Elt Ideal)) (x1 x2 : (⟨S2048x65536, .f32⟩ : BufTy).Contents (Elt Ideal))
    (x3 : (⟨S128x64, .f32⟩ : BufTy).Contents (Elt Ideal)) (x4 : (⟨S64, .f32⟩ : BufTy).Contents (Elt Ideal))
    (x5 : (⟨S128x1, .f32⟩ : BufTy).Contents (Elt Ideal)) (x6 : (⟨S1, .f32⟩ : BufTy).Contents (Elt Ideal)) :
    val_main_v29 (F := Ideal) x0 x1 x2 x3 x4 x5 x6 = layer x0 x1 x2 x3 x4 x5 x6 := by
  funext i
  obtain ⟨n, j, rfl⟩ : ∃ (n : Fin 2048) (j : Fin 64), i = ix2 n j := ⟨i 0, i 1, eq_ix2 i⟩
  rw [val_main_v29_apply]
  unfold layer aggregated
  refine Finset.sum_congr rfl fun e _ => ?_
  have el : lidx_main_v29 (ix2 n j) e = ix2 n e :=
    funext fun a => Fin.ext (by match a with | ⟨0, _⟩ => rfl | ⟨1, _⟩ => rfl)
  have er : ridx_main_v29 (ix2 n j) e = ix2 e j :=
    funext fun a => Fin.ext (by match a with | ⟨0, _⟩ => rfl | ⟨1, _⟩ => rfl)
  have e27 : idx_main_v27 (ix2 e j) = ix2 e 0 :=
    funext fun a => Fin.ext (by match a with | ⟨0, _⟩ => rfl | ⟨1, _⟩ => rfl)
  rw [el, er, val_main_v28_apply, val_main_v27_apply, Ideal.mulf_def, messages_eq, e27, attention_at]

end Cert.ReferenceIdeal.LayerValue

end
-- ==== Proof.lean ====
/-
  An attention-weighted message-passing layer over a graph given by dense incidence matrices, computed by three
  tiled kernels, against the same layer written as whole-array operations.

  Both programs compute, for node n and column j,
      o[n, j] = ∑ e, tgt[n, e] · (y[e, j] · (exp (a[e] − μ) / (∑ n', tgt[n', e] · d[n'] + ε)))
  where y are the edges' rectified messages and a their logits (a linear layer on the two endpoint feature rows
  each edge gathers through its incidence columns), μ the mean logit and d[n] = ∑ e, tgt[n, e] · exp (a[e] − μ) the
  nodes' denominators. The tiled program applies the linear layer's weight matrix as its two row halves, one per
  endpoint, where the whole-array program multiplies the concatenated feature rows by the whole matrix; it sums over the
  edges tile by tile, 1024 edges at a time, adding each tile's partial sum into a block it zeroed at the first tile,
  where the whole-array program sums over all 65536 edges at once; and it rounds its matrix products' operands to a
  narrower format, which at the ideal values is the identity. On the extended reals a sum regrouped or split in
  two is the same sum (addition is commutative and associative there, and 0 + s = s), so the two results are
  equal; no finiteness of the inputs is needed, and no product is distributed over a sum.

  The kernel program's frames are the generated ones; its run with the result array named is the generated launch
  called once more (KernelRun), and the result array is read back to the arguments stage by stage (RegionA, RegionB,
  RegionC for the three regions, KernelValue for the fold through the host operations). The reference's run and its
  operations read at an index are generated; RefSide joins them to the same stages.
-/
import proofs.«111324_j36816459661559_1_alg».proof.Defs
import proofs.«111324_j36816459661559_1_alg».proof.Proof.Gen.Kernel
import proofs.«111324_j36816459661559_1_alg».proof.Proof.Gen.Kernel.Skeleton
import proofs.«111324_j36816459661559_1_alg».proof.Proof.Gen.Kernel.Launch
import proofs.«111324_j36816459661559_1_alg».proof.Proof.Gen.Kernel.Points
import proofs.«111324_j36816459661559_1_alg».proof.Proof.Gen.Kernel.Frame
import proofs.«111324_j36816459661559_1_alg».proof.Proof.Gen.KernelIdeal
import proofs.«111324_j36816459661559_1_alg».proof.Proof.Gen.KernelIdeal.Skeleton
import proofs.«111324_j36816459661559_1_alg».proof.Proof.Gen.KernelIdeal.Launch
import proofs.«111324_j36816459661559_1_alg».proof.Proof.Gen.KernelIdeal.Points
import proofs.«111324_j36816459661559_1_alg».proof.Proof.Gen.KernelIdeal.Frame
import proofs.«111324_j36816459661559_1_alg».proof.Proof.Gen.ReferenceIdeal
import proofs.«111324_j36816459661559_1_alg».proof.Proof.Gen.Pre_finite_inputs
import proofs.«111324_j36816459661559_1_alg».proof.Proof.Gen.ReferenceIdeal.Run
import proofs.«111324_j36816459661559_1_alg».proof.Proof.Gen.ReferenceIdeal.Read
import proofs.«111324_j36816459661559_1_alg».proof.Proof.KernelRun
import proofs.«111324_j36816459661559_1_alg».proof.Proof.KernelValue
import proofs.«111324_j36816459661559_1_alg».proof.Proof.RefSide
import Idealize.ShloMosaic.Adequacy
import Idealize.ShloMosaic.Init

noncomputable section

namespace Cert.Proof

open Idealize.ShloMosaic Idealize.SL.Sem

/-- The word-level program runs and keeps its arguments: the generated frame. -/
theorem frame_kernel : Cert.frame_Kernel := fun m ρ _ => Cert.Kernel.Gen.frame m ρ

/-- The idealized program runs and keeps its arguments: the generated frame. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values both programs end with the layer of the specification in their result arrays: the kernel
    program's result array read back through its three regions, the reference's composed term read operation by
    operation, of arguments that agree. -/
theorem algebraic : Cert.algebraic_KernelIdeal_ReferenceIdeal := by
  intro m ρ m' ρ' _ hagree
  refine ⟨fun c => Cert.EdgeAttention.layer (Cert.KernelIdeal.LayerValue.argX m c) (Cert.KernelIdeal.LayerValue.argSrc m c)
    (Cert.KernelIdeal.LayerValue.argTgt m c) (Cert.KernelIdeal.LayerValue.argW m c) (Cert.KernelIdeal.LayerValue.argBias m c)
    (Cert.KernelIdeal.LayerValue.argw m c) (Cert.KernelIdeal.LayerValue.argβ m c), ?_, ?_⟩
  · exact (θ_run Cert.KernelIdeal.defs _ _).mono
      (fun _ h c => ⟨(h c).1.trans (Cert.KernelIdeal.LayerValue.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.ReferenceIdeal.LayerValue.reference_eq_layer,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
